-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x64x512 : Shape := ⟨4, ![32, 64, 64, 512]⟩
abbrev S_ : Shape := ⟨0, ![]⟩

class Facts : Prop where
  bcast_S_S32x64x64x512 : S_.BroadcastsInDim S32x64x64x512 (![] : Fin 0 → Fin S32x64x64x512.rank)
  reducesTo_S32x64x64x512_S_d0_1_2_3 : S32x64x64x512.ReducesTo [0, 1, 2, 3] S_
  h_S_ : 0 < S_.numel

variable [Facts]

def fn {F : FTy → Type} [FloatOps F] (main_arg0 : FVec F S32x64x64x512 .f32) : IVec S_ 1 :=
  let main_v0 : FVec F S32x64x64x512 .f32 := Host.absf main_arg0
  let main_cst : FVec F S_ .f32 := constant S_ .f32 0x7F800000#32
  let main_v1 : FVec F S32x64x64x512 .f32 := broadcastInDim S32x64x64x512 ![] bcast_S_S32x64x64x512 main_cst
  let main_v2 : IVec S32x64x64x512 1 := cmpf .olt main_v0 main_v1
  let main_c : IVec S_ 1 := constantI S_ 1 1#1
  let main_v3 : IVec S_ 1 := (fun x v => Host.reduce IntOp.andi x v reducesTo_S32x64x64x512_S_d0_1_2_3 h_S_) main_v2 main_c
  main_v3
-- ==== Kernel.lean ====
abbrev S32x64x64x512 : Shape := ⟨4, ![32, 64, 64, 512]⟩
abbrev S32x85x512 : Shape := ⟨3, ![32, 85, 512]⟩
abbrev S1x64x64x512 : Shape := ⟨4, ![1, 64, 64, 512]⟩
abbrev S1x85x512 : Shape := ⟨3, ![1, 85, 512]⟩
abbrev S64x64x512 : Shape := ⟨3, ![64, 64, 512]⟩
abbrev S1x64x512 : Shape := ⟨3, ![1, 64, 512]⟩
abbrev S1x1x64x512 : Shape := ⟨4, ![1, 1, 64, 512]⟩
abbrev S1x1x512 : Shape := ⟨3, ![1, 1, 512]⟩
abbrev S1x512 : Shape := ⟨2, ![1, 512]⟩
abbrev S2x32x64x512 : Shape := ⟨4, ![2, 32, 64, 512]⟩
abbrev S2x64x512 : Shape := ⟨3, ![2, 64, 512]⟩
abbrev S2x2x32x512 : Shape := ⟨4, ![2, 2, 32, 512]⟩
abbrev S2x2x512 : Shape := ⟨3, ![2, 2, 512]⟩
abbrev S4x512 : Shape := ⟨2, ![4, 512]⟩
abbrev S4x16x64x512 : Shape := ⟨4, ![4, 16, 64, 512]⟩
abbrev S4x64x512 : Shape := ⟨3, ![4, 64, 512]⟩
abbrev S4x4x16x512 : Shape := ⟨4, ![4, 4, 16, 512]⟩
abbrev S4x4x512 : Shape := ⟨3, ![4, 4, 512]⟩
abbrev S16x512 : Shape := ⟨2, ![16, 512]⟩
abbrev S8x8x64x512 : Shape := ⟨4, ![8, 8, 64, 512]⟩
abbrev S8x64x512 : Shape := ⟨3, ![8, 64, 512]⟩
abbrev S8x8x8x512 : Shape := ⟨4, ![8, 8, 8, 512]⟩
abbrev S8x8x512 : Shape := ⟨3, ![8, 8, 512]⟩
abbrev S64x512 : Shape := ⟨2, ![64, 512]⟩
abbrev S85x512 : Shape := ⟨2, ![85, 512]⟩
abbrev S32x43520 : Shape := ⟨2, ![32, 43520]⟩

abbrev nBuf : Space → Nat
  | .hbm => 3
  | .vmem => 4
  | .smem => 0
  | _ => 0

abbrev bufTy : (tb : Table) → Fin (tcTables nBuf tb) → BufTy
  | .hbm, ⟨0, _⟩ => ⟨S32x64x64x512, .f32⟩
  | .hbm, ⟨1, _⟩ => ⟨S32x85x512, .f32⟩
  | .hbm, ⟨2, _⟩ => ⟨S32x43520, .f32⟩
  | .local _ .vmem, ⟨0, _⟩ => ⟨S1x64x64x512, .f32⟩
  | .local _ .vmem, ⟨1, _⟩ => ⟨S1x64x64x512, .f32⟩
  | .local _ .vmem, ⟨2, _⟩ => ⟨S1x85x512, .f32⟩
  | .local _ .vmem, ⟨3, _⟩ => ⟨S1x85x512, .f32⟩
  | _, _ => ⟨S32x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x85x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x64x64x512_S1x64x64x512_0_0_0_0 : ∀ a, (![0, 0, 0, 0] : Fin 4 → Nat) a + S1x64x64x512.size a ≤ S1x64x64x512.size a
  h_S1x64x64x512 : 0 < S1x64x64x512.numel
  shapeCasts_S1x64x64x512_S64x64x512 : S1x64x64x512.ShapeCasts S64x64x512
  shapeCasts_S64x64x512_S1x64x64x512 : S64x64x512.ShapeCasts S1x64x64x512
  reduces_S1x64x64x512_S1x64x512 : S1x64x64x512.Reduces [1] S1x64x512
  shapeCasts_S1x64x512_S1x1x64x512 : S1x64x512.ShapeCasts S1x1x64x512
  reduces_S1x1x64x512_S1x1x512 : S1x1x64x512.Reduces [2] S1x1x512
  shapeCasts_S1x1x512_S1x512 : S1x1x512.ShapeCasts S1x512
  shapeCasts_S64x64x512_S2x32x64x512 : S64x64x512.ShapeCasts S2x32x64x512
  reduces_S2x32x64x512_S2x64x512 : S2x32x64x512.Reduces [1] S2x64x512
  shapeCasts_S2x64x512_S2x2x32x512 : S2x64x512.ShapeCasts S2x2x32x512
  reduces_S2x2x32x512_S2x2x512 : S2x2x32x512.Reduces [2] S2x2x512
  shapeCasts_S2x2x512_S4x512 : S2x2x512.ShapeCasts S4x512
  shapeCasts_S64x64x512_S4x16x64x512 : S64x64x512.ShapeCasts S4x16x64x512
  reduces_S4x16x64x512_S4x64x512 : S4x16x64x512.Reduces [1] S4x64x512
  shapeCasts_S4x64x512_S4x4x16x512 : S4x64x512.ShapeCasts S4x4x16x512
  reduces_S4x4x16x512_S4x4x512 : S4x4x16x512.Reduces [2] S4x4x512
  shapeCasts_S4x4x512_S16x512 : S4x4x512.ShapeCasts S16x512
  shapeCasts_S64x64x512_S8x8x64x512 : S64x64x512.ShapeCasts S8x8x64x512
  reduces_S8x8x64x512_S8x64x512 : S8x8x64x512.Reduces [1] S8x64x512
  shapeCasts_S8x64x512_S8x8x8x512 : S8x64x512.ShapeCasts S8x8x8x512
  reduces_S8x8x8x512_S8x8x512 : S8x8x8x512.Reduces [2] S8x8x512
  shapeCasts_S8x8x512_S64x512 : S8x8x512.ShapeCasts S64x512
  concatenates_S1x512_S4x512_S16x512_S64x512_S85x512_d0 : Shape.Concatenates [S1x512, S4x512, S16x512, S64x512] S85x512 0
  inb_S1x85x512_S1x85x512_0_0_0 : ∀ a, (![0, 0, 0] : Fin 3 → Nat) a + S1x85x512.size a ≤ S1x85x512.size a
  h_S1x85x512 : 0 < S1x85x512.numel
  shapeCasts_S1x85x512_S85x512 : S1x85x512.ShapeCasts S85x512
  shapeCasts_S85x512_S1x85x512 : S85x512.ShapeCasts S1x85x512
  shapeCasts_S32x85x512_S32x43520 : S32x85x512.ShapeCasts S32x43520
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x512.size a ≤ S32x64x64x512.size a
  hwx0_0 : ∀ i : grid0.Coords, EltTy.bits .f32 = 32 ∨ (Rect.block (s := S32x64x64x512) S1x64x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x85x512.size a ≤ S32x85x512.size a
  hwx0_1 : ∀ i : grid0.Coords, EltTy.bits .f32 = 32 ∨ (Rect.block (s := S32x85x512) S1x85x512.size (cc0_transform_1 i) (hinb0_1 i)).WholeWords (EltTy.packing .f32)

variable [Facts₀]

abbrev win0_0 : Pipeline.Window sig grid0 :=
  Pipeline.Window.ofSpec (Memref.whole main_arg0) S1x64x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x85x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x64x64x512 : Shape := ⟨4, ![32, 64, 64, 512]⟩
abbrev S32x0x64x512 : Shape := ⟨4, ![32, 0, 64, 512]⟩
abbrev S32x0x64x64x512 : Shape := ⟨5, ![32, 0, 64, 64, 512]⟩
abbrev S_ : Shape := ⟨0, ![]⟩
abbrev S32x64x512 : Shape := ⟨3, ![32, 64, 512]⟩
abbrev S32x1x64x512 : Shape := ⟨4, ![32, 1, 64, 512]⟩
abbrev S32x1x0x512 : Shape := ⟨4, ![32, 1, 0, 512]⟩
abbrev S32x1x0x64x512 : Shape := ⟨5, ![32, 1, 0, 64, 512]⟩
abbrev S32x1x512 : Shape := ⟨3, ![32, 1, 512]⟩
abbrev S32x1x1x512 : Shape := ⟨4, ![32, 1, 1, 512]⟩
abbrev S32x512 : Shape := ⟨2, ![32, 512]⟩
abbrev S32x32x64x512 : Shape := ⟨4, ![32, 32, 64, 512]⟩
abbrev S32x1x32x64x512 : Shape := ⟨5, ![32, 1, 32, 64, 512]⟩
abbrev S32x2x64x512 : Shape := ⟨4, ![32, 2, 64, 512]⟩
abbrev S32x2x32x512 : Shape := ⟨4, ![32, 2, 32, 512]⟩
abbrev S32x2x1x32x512 : Shape := ⟨5, ![32, 2, 1, 32, 512]⟩
abbrev S32x2x1x512 : Shape := ⟨4, ![32, 2, 1, 512]⟩
abbrev S32x2x512 : Shape := ⟨3, ![32, 2, 512]⟩
abbrev S32x2x2x512 : Shape := ⟨4, ![32, 2, 2, 512]⟩
abbrev S32x2048 : Shape := ⟨2, ![32, 2048]⟩
abbrev S32x48x64x512 : Shape := ⟨4, ![32, 48, 64, 512]⟩
abbrev S32x3x16x64x512 : Shape := ⟨5, ![32, 3, 16, 64, 512]⟩
abbrev S32x3x64x512 : Shape := ⟨4, ![32, 3, 64, 512]⟩
abbrev S32x16x64x512 : Shape := ⟨4, ![32, 16, 64, 512]⟩
abbrev S32x4x64x512 : Shape := ⟨4, ![32, 4, 64, 512]⟩
abbrev S32x4x48x512 : Shape := ⟨4, ![32, 4, 48, 512]⟩
abbrev S32x4x3x16x512 : Shape := ⟨5, ![32, 4, 3, 16, 512]⟩
abbrev S32x4x3x512 : Shape := ⟨4, ![32, 4, 3, 512]⟩
abbrev S32x4x16x512 : Shape := ⟨4, ![32, 4, 16, 512]⟩
abbrev S32x4x512 : Shape := ⟨3, ![32, 4, 512]⟩
abbrev S32x4x1x512 : Shape := ⟨4, ![32, 4, 1, 512]⟩
abbrev S32x4x4x512 : Shape := ⟨4, ![32, 4, 4, 512]⟩
abbrev S32x8192 : Shape := ⟨2, ![32, 8192]⟩
abbrev S32x56x64x512 : Shape := ⟨4, ![32, 56, 64, 512]⟩
abbrev S32x7x8x64x512 : Shape := ⟨5, ![32, 7, 8, 64, 512]⟩
abbrev S32x7x64x512 : Shape := ⟨4, ![32, 7, 64, 512]⟩
abbrev S32x8x64x512 : Shape := ⟨4, ![32, 8, 64, 512]⟩
abbrev S32x8x56x512 : Shape := ⟨4, ![32, 8, 56, 512]⟩
abbrev S32x8x7x8x512 : Shape := ⟨5, ![32, 8, 7, 8, 512]⟩
abbrev S32x8x7x512 : Shape := ⟨4, ![32, 8, 7, 512]⟩
abbrev S32x8x8x512 : Shape := ⟨4, ![32, 8, 8, 512]⟩
abbrev S32x8x512 : Shape := ⟨3, ![32, 8, 512]⟩
abbrev S32x8x1x512 : Shape := ⟨4, ![32, 8, 1, 512]⟩
abbrev S32x32768 : Shape := ⟨2, ![32, 32768]⟩
abbrev S32x43520 : Shape := ⟨2, ![32, 43520]⟩

abbrev nBuf : Space → Nat
  | .hbm => 76
  | .vmem => 0
  | .smem => 0
  | _ => 0

abbrev bufTy : (tb : Table) → Fin (tcTables nBuf tb) → BufTy
  | .hbm, ⟨0, _⟩ => ⟨S32x64x64x512, .f32⟩
  | .hbm, ⟨1, _⟩ => ⟨S32x0x64x512, .f32⟩
  | .hbm, ⟨2, _⟩ => ⟨S32x0x64x64x512, .f32⟩
  | .hbm, ⟨3, _⟩ => ⟨S_, .f32⟩
  | .hbm, ⟨4, _⟩ => ⟨S32x0x64x512, .f32⟩
  | .hbm, ⟨5, _⟩ => ⟨S_, .f32⟩
  | .hbm, ⟨6, _⟩ => ⟨S32x64x512, .f32⟩
  | .hbm, ⟨7, _⟩ => ⟨S32x1x64x512, .f32⟩
  | .hbm, ⟨8, _⟩ => ⟨S32x1x64x512, .f32⟩
  | .hbm, ⟨9, _⟩ => ⟨S32x1x0x512, .f32⟩
  | .hbm, ⟨10, _⟩ => ⟨S32x1x0x64x512, .f32⟩
  | .hbm, ⟨11, _⟩ => ⟨S_, .f32⟩
  | .hbm, ⟨12, _⟩ => ⟨S32x1x0x512, .f32⟩
  | .hbm, ⟨13, _⟩ => ⟨S_, .f32⟩
  | .hbm, ⟨14, _⟩ => ⟨S32x1x512, .f32⟩
  | .hbm, ⟨15, _⟩ => ⟨S32x1x1x512, .f32⟩
  | .hbm, ⟨16, _⟩ => ⟨S32x1x1x512, .f32⟩
  | .hbm, ⟨17, _⟩ => ⟨S32x512, .f32⟩
  | .hbm, ⟨18, _⟩ => ⟨S32x32x64x512, .f32⟩
  | .hbm, ⟨19, _⟩ => ⟨S32x1x32x64x512, .f32⟩
  | .hbm, ⟨20, _⟩ => ⟨S_, .f32⟩
  | .hbm, ⟨21, _⟩ => ⟨S32x1x64x512, .f32⟩
  | .hbm, ⟨22, _⟩ => ⟨S32x32x64x512, .f32⟩
  | .hbm, ⟨23, _⟩ => ⟨S_, .f32⟩
  | .hbm, ⟨24, _⟩ => ⟨S32x64x512, .f32⟩
  | .hbm, ⟨25, _⟩ => ⟨S32x1x64x512, .f32⟩
  | .hbm, ⟨26, _⟩ => ⟨S32x2x64x512, .f32⟩
  | .hbm, ⟨27, _⟩ => ⟨S32x2x32x512, .f32⟩
  | .hbm, ⟨28, _⟩ => ⟨S32x2x1x32x512, .f32⟩
  | .hbm, ⟨29, _⟩ => ⟨S_, .f32⟩
  | .hbm, ⟨30, _⟩ => ⟨S32x2x1x512, .f32⟩
  | .hbm, ⟨31, _⟩ => ⟨S32x2x32x512, .f32⟩
  | .hbm, ⟨32, _⟩ => ⟨S_, .f32⟩
  | .hbm, ⟨33, _⟩ => ⟨S32x2x512, .f32⟩
  | .hbm, ⟨34, _⟩ => ⟨S32x2x1x512, .f32⟩
  | .hbm, ⟨35, _⟩ => ⟨S32x2x2x512, .f32⟩
  | .hbm, ⟨36, _⟩ => ⟨S32x2048, .f32⟩
  | .hbm, ⟨37, _⟩ => ⟨S32x48x64x512, .f32⟩
  | .hbm, ⟨38, _⟩ => ⟨S32x3x16x64x512, .f32⟩
  | .hbm, ⟨39, _⟩ => ⟨S_, .f32⟩
  | .hbm, ⟨40, _⟩ => ⟨S32x3x64x512, .f32⟩
  | .hbm, ⟨41, _⟩ => ⟨S32x16x64x512, .f32⟩
  | .hbm, ⟨42, _⟩ => ⟨S_, .f32⟩
  | .hbm, ⟨43, _⟩ => ⟨S32x64x512, .f32⟩
  | .hbm, ⟨44, _⟩ => ⟨S32x1x64x512, .f32⟩
  | .hbm, ⟨45, _⟩ => ⟨S32x4x64x512, .f32⟩
  | .hbm, ⟨46, _⟩ => ⟨S32x4x48x512, .f32⟩
  | .hbm, ⟨47, _⟩ => ⟨S32x4x3x16x512, .f32⟩
  | .hbm, ⟨48, _⟩ => ⟨S_, .f32⟩
  | .hbm, ⟨49, _⟩ => ⟨S32x4x3x512, .f32⟩
  | .hbm, ⟨50, _⟩ => ⟨S32x4x16x512, .f32⟩
  | .hbm, ⟨51, _⟩ => ⟨S_, .f32⟩
  | .hbm, ⟨52, _⟩ => ⟨S32x4x512, .f32⟩
  | .hbm, ⟨53, _⟩ => ⟨S32x4x1x512, .f32⟩
  | .hbm, ⟨54, _⟩ => ⟨S32x4x4x512, .f32⟩
  | .hbm, ⟨55, _⟩ => ⟨S32x8192, .f32⟩
  | .hbm, ⟨56, _⟩ => ⟨S32x56x64x512, .f32⟩
  | .hbm, ⟨57, _⟩ => ⟨S32x7x8x64x512, .f32⟩
  | .hbm, ⟨58, _⟩ => ⟨S_, .f32⟩
  | .hbm, ⟨59, _⟩ => ⟨S32x7x64x512, .f32⟩
  | .hbm, ⟨60, _⟩ => ⟨S32x8x64x512, .f32⟩
  | .hbm, ⟨61, _⟩ => ⟨S_, .f32⟩
  | .hbm, ⟨62, _⟩ => ⟨S32x64x512, .f32⟩
  | .hbm, ⟨63, _⟩ => ⟨S32x1x64x512, .f32⟩
  | .hbm, ⟨64, _⟩ => ⟨S32x8x64x512, .f32⟩
  | .hbm, ⟨65, _⟩ => ⟨S32x8x56x512, .f32⟩
  | .hbm, ⟨66, _⟩ => ⟨S32x8x7x8x512, .f32⟩
  | .hbm, ⟨67, _⟩ => ⟨S_, .f32⟩
  | .hbm, ⟨68, _⟩ => ⟨S32x8x7x512, .f32⟩
  | .hbm, ⟨69, _⟩ => ⟨S32x8x8x512, .f32⟩
  | .hbm, ⟨70, _⟩ => ⟨S_, .f32⟩
  | .hbm, ⟨71, _⟩ => ⟨S32x8x512, .f32⟩
  | .hbm, ⟨72, _⟩ => ⟨S32x8x1x512, .f32⟩
  | .hbm, ⟨73, _⟩ => ⟨S32x8x8x512, .f32⟩
  | .hbm, ⟨74, _⟩ => ⟨S32x32768, .f32⟩
  | .hbm, ⟨75, _⟩ => ⟨S32x43520, .f32⟩
  | _, _ => ⟨S32x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_5 : Ref sig .tc := ⟨.hbm, 29, rfl⟩
abbrev main_v22 : Ref sig .tc := ⟨.hbm, 30, rfl⟩
abbrev main_v23 : Ref sig .tc := ⟨.hbm, 31, rfl⟩
abbrev main_cst_6 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_7 : Ref sig .tc := ⟨.hbm, 39, rfl⟩
abbrev main_v30 : Ref sig .tc := ⟨.hbm, 40, rfl⟩
abbrev main_v31 : Ref sig .tc := ⟨.hbm, 41, rfl⟩
abbrev main_cst_8 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_9 : Ref sig .tc := ⟨.hbm, 48, rfl⟩
abbrev main_v37 : Ref sig .tc := ⟨.hbm, 49, rfl⟩
abbrev main_v38 : Ref sig .tc := ⟨.hbm, 50, rfl⟩
abbrev main_cst_10 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_11 : Ref sig .tc := ⟨.hbm, 58, rfl⟩
abbrev main_v45 : Ref sig .tc := ⟨.hbm, 59, rfl⟩
abbrev main_v46 : Ref sig .tc := ⟨.hbm, 60, rfl⟩
abbrev main_cst_12 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_13 : Ref sig .tc := ⟨.hbm, 67, rfl⟩
abbrev main_v52 : Ref sig .tc := ⟨.hbm, 68, rfl⟩
abbrev main_v53 : Ref sig .tc := ⟨.hbm, 69, rfl⟩
abbrev main_cst_14 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]

class Facts₀ : Prop where
  slices_S32x64x64x512_S32x0x64x512_0_0_0_0 : S32x64x64x512.Slices ![0, 0, 0, 0] S32x0x64x512
  shapeCasts_S32x0x64x512_S32x0x64x64x512 : S32x0x64x512.ShapeCasts S32x0x64x64x512
  reducesTo_S32x0x64x64x512_S32x0x64x512_d2 : S32x0x64x64x512.ReducesTo [2] S32x0x64x512
  h_S_ : 0 < S_.numel
  reducesTo_S32x64x64x512_S32x64x512_d1 : S32x64x64x512.ReducesTo [1] S32x64x512
  bcast_S32x64x512_S32x1x64x512_0_2_3 : S32x64x512.BroadcastsInDim S32x1x64x512 (![0, 2, 3] : Fin 3 → Fin S32x1x64x512.rank)
  concatenates_S32x0x64x512_S32x1x64x512_S32x1x64x512_d1 : Shape.Concatenates [S32x0x64x512, S32x1x64x512] S32x1x64x512 1
  slices_S32x1x64x512_S32x1x0x512_0_0_0_0 : S32x1x64x512.Slices ![0, 0, 0, 0] S32x1x0x512
  shapeCasts_S32x1x0x512_S32x1x0x64x512 : S32x1x0x512.ShapeCasts S32x1x0x64x512
  reducesTo_S32x1x0x64x512_S32x1x0x512_d3 : S32x1x0x64x512.ReducesTo [3] S32x1x0x512
  reducesTo_S32x1x64x512_S32x1x512_d2 : S32x1x64x512.ReducesTo [2] S32x1x512
  bcast_S32x1x512_S32x1x1x512_0_1_3 : S32x1x512.BroadcastsInDim S32x1x1x512 (![0, 1, 3] : Fin 3 → Fin S32x1x1x512.rank)
  concatenates_S32x1x0x512_S32x1x1x512_S32x1x1x512_d2 : Shape.Concatenates [S32x1x0x512, S32x1x1x512] S32x1x1x512 2
  shapeCasts_S32x1x1x512_S32x512 : S32x1x1x512.ShapeCasts S32x512
  slices_S32x64x64x512_S32x32x64x512_0_0_0_0 : S32x64x64x512.Slices ![0, 0, 0, 0] S32x32x64x512
  shapeCasts_S32x32x64x512_S32x1x32x64x512 : S32x32x64x512.ShapeCasts S32x1x32x64x512
  reducesTo_S32x1x32x64x512_S32x1x64x512_d2 : S32x1x32x64x512.ReducesTo [2] S32x1x64x512
  slices_S32x64x64x512_S32x32x64x512_0_32_0_0 : S32x64x64x512.Slices ![0, 32, 0, 0] S32x32x64x512
  reducesTo_S32x32x64x512_S32x64x512_d1 : S32x32x64x512.ReducesTo [1] S32x64x512
  concatenates_S32x1x64x512_S32x1x64x512_S32x2x64x512_d1 : Shape.Concatenates [S32x1x64x512, S32x1x64x512] S32x2x64x512 1
  slices_S32x2x64x512_S32x2x32x512_0_0_0_0 : S32x2x64x512.Slices ![0, 0, 0, 0] S32x2x32x512
  shapeCasts_S32x2x32x512_S32x2x1x32x512 : S32x2x32x512.ShapeCasts S32x2x1x32x512
  reducesTo_S32x2x1x32x512_S32x2x1x512_d3 : S32x2x1x32x512.ReducesTo [3] S32x2x1x512
  slices_S32x2x64x512_S32x2x32x512_0_0_32_0 : S32x2x64x512.Slices ![0, 0, 32, 0] S32x2x32x512
  reducesTo_S32x2x32x512_S32x2x512_d2 : S32x2x32x512.ReducesTo [2] S32x2x512
  bcast_S32x2x512_S32x2x1x512_0_1_3 : S32x2x512.BroadcastsInDim S32x2x1x512 (![0, 1, 3] : Fin 3 → Fin S32x2x1x512.rank)
  concatenates_S32x2x1x512_S32x2x1x512_S32x2x2x512_d2 : Shape.Concatenates [S32x2x1x512, S32x2x1x512] S32x2x2x512 2
  shapeCasts_S32x2x2x512_S32x2048 : S32x2x2x512.ShapeCasts S32x2048
  slices_S32x64x64x512_S32x48x64x512_0_0_0_0 : S32x64x64x512.Slices ![0, 0, 0, 0] S32x48x64x512
  shapeCasts_S32x48x64x512_S32x3x16x64x512 : S32x48x64x512.ShapeCasts S32x3x16x64x512
  reducesTo_S32x3x16x64x512_S32x3x64x512_d2 : S32x3x16x64x512.ReducesTo [2] S32x3x64x512
  slices_S32x64x64x512_S32x16x64x512_0_48_0_0 : S32x64x64x512.Slices ![0, 48, 0, 0] S32x16x64x512
  reducesTo_S32x16x64x512_S32x64x512_d1 : S32x16x64x512.ReducesTo [1] S32x64x512
  concatenates_S32x3x64x512_S32x1x64x512_S32x4x64x512_d1 : Shape.Concatenates [S32x3x64x512, S32x1x64x512] S32x4x64x512 1
  slices_S32x4x64x512_S32x4x48x512_0_0_0_0 : S32x4x64x512.Slices ![0, 0, 0, 0] S32x4x48x512
  shapeCasts_S32x4x48x512_S32x4x3x16x512 : S32x4x48x512.ShapeCasts S32x4x3x16x512
  reducesTo_S32x4x3x16x512_S32x4x3x512_d3 : S32x4x3x16x512.ReducesTo [3] S32x4x3x512
  slices_S32x4x64x512_S32x4x16x512_0_0_48_0 : S32x4x64x512.Slices ![0, 0, 48, 0] S32x4x16x512
  reducesTo_S32x4x16x512_S32x4x512_d2 : S32x4x16x512.ReducesTo [2] S32x4x512
  bcast_S32x4x512_S32x4x1x512_0_1_3 : S32x4x512.BroadcastsInDim S32x4x1x512 (![0, 1, 3] : Fin 3 → Fin S32x4x1x512.rank)
  concatenates_S32x4x3x512_S32x4x1x512_S32x4x4x512_d2 : Shape.Concatenates [S32x4x3x512, S32x4x1x512] S32x4x4x512 2
  shapeCasts_S32x4x4x512_S32x8192 : S32x4x4x512.ShapeCasts S32x8192
  slices_S32x64x64x512_S32x56x64x512_0_0_0_0 : S32x64x64x512.Slices ![0, 0, 0, 0] S32x56x64x512
  shapeCasts_S32x56x64x512_S32x7x8x64x512 : S32x56x64x512.ShapeCasts S32x7x8x64x512
  reducesTo_S32x7x8x64x512_S32x7x64x512_d2 : S32x7x8x64x512.ReducesTo [2] S32x7x64x512
  slices_S32x64x64x512_S32x8x64x512_0_56_0_0 : S32x64x64x512.Slices ![0, 56, 0, 0] S32x8x64x512
  reducesTo_S32x8x64x512_S32x64x512_d1 : S32x8x64x512.ReducesTo [1] S32x64x512
  concatenates_S32x7x64x512_S32x1x64x512_S32x8x64x512_d1 : Shape.Concatenates [S32x7x64x512, S32x1x64x512] S32x8x64x512 1
  slices_S32x8x64x512_S32x8x56x512_0_0_0_0 : S32x8x64x512.Slices ![0, 0, 0, 0] S32x8x56x512
  shapeCasts_S32x8x56x512_S32x8x7x8x512 : S32x8x56x512.ShapeCasts S32x8x7x8x512
  reducesTo_S32x8x7x8x512_S32x8x7x512_d3 : S32x8x7x8x512.ReducesTo [3] S32x8x7x512
  slices_S32x8x64x512_S32x8x8x512_0_0_56_0 : S32x8x64x512.Slices ![0, 0, 56, 0] S32x8x8x512
  reducesTo_S32x8x8x512_S32x8x512_d2 : S32x8x8x512.ReducesTo [2] S32x8x512
  bcast_S32x8x512_S32x8x1x512_0_1_3 : S32x8x512.BroadcastsInDim S32x8x1x512 (![0, 1, 3] : Fin 3 → Fin S32x8x1x512.rank)
  concatenates_S32x8x7x512_S32x8x1x512_S32x8x8x512_d2 : Shape.Concatenates [S32x8x7x512, S32x8x1x512] S32x8x8x512 2
  shapeCasts_S32x8x8x512_S32x32768 : S32x8x8x512.ShapeCasts S32x32768
  concatenates_S32x512_S32x2048_S32x8192_S32x32768_S32x43520_d1 : Shape.Concatenates [S32x512, S32x2048, S32x8192, S32x32768] S32x43520 1

variable [Facts₀]

class Facts : Prop extends Facts₀ where

variable [Facts]
-- ==== Proof.Spec.lean ====
/-
  Spatial-pyramid max pooling of an image batch x[b, h, w, c] (32 × 64 × 64 × 512) at the four scales 1, 2, 4, 8, as ONE
  function of the array. At scale s the 64 × 64 positions are cut into s × s tiles of (64/s) × (64/s) positions, and
  the result holds, per image b and channel c, the greatest entry of each tile; the tiles of scale 1, then 2, then 4,
  then 8 are listed one after the other (1 + 4 + 16 + 64 = 85 rows), tile (p, q) of a scale at row p · s + q of its
  stretch. Each maximum is taken in two steps, first down the rows of a tile's column and then across the columns, both
  starting from −∞, the greatest lower bound of the extended reals, so that nothing but commutativity and
  associativity of `max` is ever used. Coordinates are natural numbers here; an array is read outside its extents as −∞,
  which no tile ever does.
-/
import Idealize.ShloMosaic.PureOps.Ideal
import Idealize.ShloMosaic.Lib.ValueIdx

noncomputable section

namespace Cert.Spp

open Idealize.ShloMosaic Idealize.ShloMosaic.ValueIdx

/-- The value every maximum starts from: the f32 pattern of −∞. -/
abbrev bot : Ideal .f32 := FloatOps.ofBits (F := Ideal) .f32 0xFF800000#32

/-- The greatest entry of column `w`, channel `c` of an image `Y` over the `hs` rows `p · hs, …, p · hs + hs − 1`. -/
def colmax (hs : Nat) (Y : Nat → Nat → Nat → Ideal .f32) (p w c : Nat) : Ideal .f32 :=
  (Finset.univ : Finset (Fin hs)).fold max bot (fun h => Y (p * hs + h.val) w c)

/-- The greatest entry of channel `c` over tile `(p, q)` of `hs × ws` positions: across the tile's `ws` columns, the
    greatest entry of each column. -/
def tile (hs ws : Nat) (Y : Nat → Nat → Nat → Ideal .f32) (p q c : Nat) : Ideal .f32 :=
  (Finset.univ : Finset (Fin ws)).fold max bot (fun k => colmax hs Y p (q * ws + k.val) c)

/-- Row `r` of the 85 rows of one image's pyramid: row 0 the whole image, rows 1–4 the 2 × 2 tiles, rows 5–20 the
    4 × 4 tiles, rows 21–84 the 8 × 8 tiles, each scale's tiles in row-major order. -/
def bins (Y : Nat → Nat → Nat → Ideal .f32) (r c : Nat) : Ideal .f32 :=
  if r < 1 then tile 64 64 Y 0 0 c
  else if r < 5 then tile 32 32 Y ((r - 1) / 2) ((r - 1) % 2) c
  else if r < 21 then tile 16 16 Y ((r - 5) / 4) ((r - 5) % 4) c
  else tile 8 8 Y ((r - 21) / 8) ((r - 21) % 8) c

/-- Image `b` of the batch by natural coordinates (−∞ outside the extents). -/
def img (x : (⟨4, ![32, 64, 64, 512]⟩ : Shape).Idx → Ideal .f32) (b h w c : Nat) : Ideal .f32 :=
  if hh : b < 32 ∧ h < 64 ∧ w < 64 ∧ c < 512 then x (ix4 ⟨b, hh.1⟩ ⟨h, hh.2.1⟩ ⟨w, hh.2.2.1⟩ ⟨c, hh.2.2.2⟩) else bot

/-- An entry of the batch is `img` at its coordinates. -/
theorem img_eq (x : (⟨4, ![32, 64, 64, 512]⟩ : Shape).Idx → Ideal .f32) (k : (⟨4, ![32, 64, 64, 512]⟩ : Shape).Idx)
    (b h w c : Nat) (e0 : (k 0).val = b) (e1 : (k 1).val = h) (e2 : (k 2).val = w) (e3 : (k 3).val = c) :
    x k = img x b h w c := by
  subst e0 e1 e2 e3
  unfold img
  rw [dif_pos ⟨(k 0).isLt, (k 1).isLt, (k 2).isLt, (k 3).isLt⟩]
  exact congrArg x (eq_ix4 k)

/-- One image held as a 1 × 64 × 64 × 512 block, by natural coordinates (−∞ outside the extents). -/
def blk (x0 : (⟨4, ![1, 64, 64, 512]⟩ : Shape).Idx → Ideal .f32) (h w c : Nat) : Ideal .f32 :=
  if hh : h < 64 ∧ w < 64 ∧ c < 512 then x0 (ix4 (0 : Fin 1) ⟨h, hh.1⟩ ⟨w, hh.2.1⟩ ⟨c, hh.2.2⟩) else bot

/-- An entry of the block is `blk` at its coordinates. -/
theorem blk_eq (x0 : (⟨4, ![1, 64, 64, 512]⟩ : Shape).Idx → Ideal .f32) (k : (⟨4, ![1, 64, 64, 512]⟩ : Shape).Idx)
    (h w c : Nat) (e1 : (k 1).val = h) (e2 : (k 2).val = w) (e3 : (k 3).val = c) :
    x0 k = blk x0 h w c := by
  subst e1 e2 e3
  unfold blk
  rw [dif_pos ⟨(k 1).isLt, (k 2).isLt, (k 3).isLt⟩]
  have h0 : k 0 = (0 : Fin 1) := Fin.ext (by have h : (k 0).val < 1 := (k 0).isLt; show (k 0).val = 0; omega)
  refine congrArg x0 ((eq_ix4 k).trans ?_)
  rw [h0]
  rfl

/-- The whole result, image by image: the 85 pyramid rows of each of the 32 images. -/
def pooled (x : (⟨4, ![32, 64, 64, 512]⟩ : Shape).Idx → Ideal .f32) : (⟨3, ![32, 85, 512]⟩ : Shape).Idx → Ideal .f32 :=
  fun j => bins (img x (j 0).val) (j 1).val (j 2).val

end Cert.Spp

end
-- ==== Proof.LibMaxReduce.lean ====
/-
  A maximum taken along ONE axis of an array of extended reals, read at an index of the result: it is the fold of `max`,
  from the starting value, over the entries whose coordinate on that axis runs through its whole range, the other
  coordinates being the result index's. Stated for the vector unit's reduction and for the host's one-operand reduce, at
  the ranks and axes a pooling over rows and columns meets (rank 4 over axes 1 and 2, rank 5 over axes 2 and 3), at
  any extents: nothing here depends on a particular array's sizes, nor on the order the entries are visited in
  (`max` is commutative and associative).
-/
import Idealize.ShloMosaic.PureOps.Ideal
import Idealize.ShloMosaic.PureOps.Ideal.Laws
import Idealize.ShloMosaic.PureOps.Reduce
import Idealize.ShloMosaic.Lib.ValueIdx

noncomputable section

namespace Cert.LibMaxReduce

open Idealize.ShloMosaic Idealize.ShloMosaic.ValueIdx

variable {n0 n1 n2 n3 n4 : Nat}

/-- A vector maximum-reduction of a rank-4 f32 vector over axis 1, read at an index: the fold of `max`, from the
    accumulator's value, of the entries along that axis. -/
theorem multiReduction_max_r4a1 (v : FVec Ideal ⟨4, ![n0, n1, n2, n3]⟩ .f32) (acc : BitVec 32)
    (h : (⟨4, ![n0, n1, n2, n3]⟩ : Shape).Reduces [1] ⟨3, ![n0, n2, n3]⟩)
    (hφ : FKind.Formats .f32) (hacc : acc = FKind.maximumf.neutral .f32 hφ)
    (a : Fin n0) (b : Fin n2) (c : Fin n3) :
    multiReduction .maximumf [1] ⟨3, ![n0, n2, n3]⟩ v acc h hφ hacc (ix3 a b c)
      = (Finset.univ : Finset (Fin n1)).fold max (FloatOps.ofBits (F := Ideal) .f32 acc) (fun k => v (ix4 a k b c)) := by
  refine (Ideal.multiReduction_maximumf_single v acc h hφ hacc (ix3 a b c)).trans ?_
  refine congrArg (fun f => (Finset.univ : Finset (Fin n1)).fold max (FloatOps.ofBits (F := Ideal) .f32 acc) f) (funext fun k => ?_)
  show v (h.lift (ix3 a b c) k) = v (ix4 a k b c)
  refine congrArg v (funext fun i => ?_)
  match i with
  | ⟨0, _⟩ => rfl
  | ⟨1, _⟩ => rfl
  | ⟨2, _⟩ => rfl
  | ⟨3, _⟩ => rfl

/-- A vector maximum-reduction of a rank-4 f32 vector over axis 2, read at an index: the fold of `max`, from the
    accumulator's value, of the entries along that axis. -/
theorem multiReduction_max_r4a2 (v : FVec Ideal ⟨4, ![n0, n1, n2, n3]⟩ .f32) (acc : BitVec 32)
    (h : (⟨4, ![n0, n1, n2, n3]⟩ : Shape).Reduces [2] ⟨3, ![n0, n1, n3]⟩)
    (hφ : FKind.Formats .f32) (hacc : acc = FKind.maximumf.neutral .f32 hφ)
    (a : Fin n0) (b : Fin n1) (c : Fin n3) :
    multiReduction .maximumf [2] ⟨3, ![n0, n1, n3]⟩ v acc h hφ hacc (ix3 a b c)
      = (Finset.univ : Finset (Fin n2)).fold max (FloatOps.ofBits (F := Ideal) .f32 acc) (fun k => v (ix4 a b k c)) := by
  refine (Ideal.multiReduction_maximumf_single v acc h hφ hacc (ix3 a b c)).trans ?_
  refine congrArg (fun f => (Finset.univ : Finset (Fin n2)).fold max (FloatOps.ofBits (F := Ideal) .f32 acc) f) (funext fun k => ?_)
  show v (h.lift (ix3 a b c) k) = v (ix4 a b k c)
  refine congrArg v (funext fun i => ?_)
  match i with
  | ⟨0, _⟩ => rfl
  | ⟨1, _⟩ => rfl
  | ⟨2, _⟩ => rfl
  | ⟨3, _⟩ => rfl

/-- The host's maximum-reduce of a rank-4 array over axis 1, read at an index: the fold of `max`, from the initial
    value, of the entries along that axis. -/
theorem hostReduce_max_r4a1 {u : Shape} (x : (⟨4, ![n0, n1, n2, n3]⟩ : Shape).Idx → Ideal .f32) (init : u.Idx → Ideal .f32)
    (h' : (⟨4, ![n0, n1, n2, n3]⟩ : Shape).ReducesTo [1] ⟨3, ![n0, n2, n3]⟩) (h : (⟨4, ![n0, n1, n2, n3]⟩ : Shape).Reduces [1] ⟨3, ![n0, n2, n3]⟩) (hu : 0 < u.numel)
    (a : Fin n0) (b : Fin n2) (c : Fin n3) :
    Host.reduce (FloatOps.maximumf (F := Ideal) (φ := .f32)) x init h' hu (ix3 a b c)
      = (Finset.univ : Finset (Fin n1)).fold max (init (Shape.Idx.first hu)) (fun k => x (ix4 a k b c)) := by
  refine (Host.reduce_eq_fold_single (FloatOps.maximumf (F := Ideal) (φ := .f32)) x init h' h hu (ix3 a b c)).trans ?_
  refine congrArg (fun f => (Finset.univ : Finset (Fin n1)).fold max (init (Shape.Idx.first hu)) f) (funext fun k => ?_)
  show x (h.lift (ix3 a b c) k) = x (ix4 a k b c)
  refine congrArg x (funext fun i => ?_)
  match i with
  | ⟨0, _⟩ => rfl
  | ⟨1, _⟩ => rfl
  | ⟨2, _⟩ => rfl
  | ⟨3, _⟩ => rfl

/-- The host's maximum-reduce of a rank-4 array over axis 2, read at an index: the fold of `max`, from the initial
    value, of the entries along that axis. -/
theorem hostReduce_max_r4a2 {u : Shape} (x : (⟨4, ![n0, n1, n2, n3]⟩ : Shape).Idx → Ideal .f32) (init : u.Idx → Ideal .f32)
    (h' : (⟨4, ![n0, n1, n2, n3]⟩ : Shape).ReducesTo [2] ⟨3, ![n0, n1, n3]⟩) (h : (⟨4, ![n0, n1, n2, n3]⟩ : Shape).Reduces [2] ⟨3, ![n0, n1, n3]⟩) (hu : 0 < u.numel)
    (a : Fin n0) (b : Fin n1) (c : Fin n3) :
    Host.reduce (FloatOps.maximumf (F := Ideal) (φ := .f32)) x init h' hu (ix3 a b c)
      = (Finset.univ : Finset (Fin n2)).fold max (init (Shape.Idx.first hu)) (fun k => x (ix4 a b k c)) := by
  refine (Host.reduce_eq_fold_single (FloatOps.maximumf (F := Ideal) (φ := .f32)) x init h' h hu (ix3 a b c)).trans ?_
  refine congrArg (fun f => (Finset.univ : Finset (Fin n2)).fold max (init (Shape.Idx.first hu)) f) (funext fun k => ?_)
  show x (h.lift (ix3 a b c) k) = x (ix4 a b k c)
  refine congrArg x (funext fun i => ?_)
  match i with
  | ⟨0, _⟩ => rfl
  | ⟨1, _⟩ => rfl
  | ⟨2, _⟩ => rfl
  | ⟨3, _⟩ => rfl

/-- The host's maximum-reduce of a rank-5 array over axis 2, read at an index: the fold of `max`, from the initial
    value, of the entries along that axis. -/
theorem hostReduce_max_r5a2 {u : Shape} (x : (⟨5, ![n0, n1, n2, n3, n4]⟩ : Shape).Idx → Ideal .f32) (init : u.Idx → Ideal .f32)
    (h' : (⟨5, ![n0, n1, n2, n3, n4]⟩ : Shape).ReducesTo [2] ⟨4, ![n0, n1, n3, n4]⟩) (h : (⟨5, ![n0, n1, n2, n3, n4]⟩ : Shape).Reduces [2] ⟨4, ![n0, n1, n3, n4]⟩) (hu : 0 < u.numel)
    (a : Fin n0) (b : Fin n1) (c : Fin n3) (d : Fin n4) :
    Host.reduce (FloatOps.maximumf (F := Ideal) (φ := .f32)) x init h' hu (ix4 a b c d)
      = (Finset.univ : Finset (Fin n2)).fold max (init (Shape.Idx.first hu)) (fun k => x (ix5 a b k c d)) := by
  refine (Host.reduce_eq_fold_single (FloatOps.maximumf (F := Ideal) (φ := .f32)) x init h' h hu (ix4 a b c d)).trans ?_
  refine congrArg (fun f => (Finset.univ : Finset (Fin n2)).fold max (init (Shape.Idx.first hu)) f) (funext fun k => ?_)
  show x (h.lift (ix4 a b c d) k) = x (ix5 a b k c d)
  refine congrArg x (funext fun i => ?_)
  match i with
  | ⟨0, _⟩ => rfl
  | ⟨1, _⟩ => rfl
  | ⟨2, _⟩ => rfl
  | ⟨3, _⟩ => rfl
  | ⟨4, _⟩ => rfl

/-- The host's maximum-reduce of a rank-5 array over axis 3, read at an index: the fold of `max`, from the initial
    value, of the entries along that axis. -/
theorem hostReduce_max_r5a3 {u : Shape} (x : (⟨5, ![n0, n1, n2, n3, n4]⟩ : Shape).Idx → Ideal .f32) (init : u.Idx → Ideal .f32)
    (h' : (⟨5, ![n0, n1, n2, n3, n4]⟩ : Shape).ReducesTo [3] ⟨4, ![n0, n1, n2, n4]⟩) (h : (⟨5, ![n0, n1, n2, n3, n4]⟩ : Shape).Reduces [3] ⟨4, ![n0, n1, n2, n4]⟩) (hu : 0 < u.numel)
    (a : Fin n0) (b : Fin n1) (c : Fin n2) (d : Fin n4) :
    Host.reduce (FloatOps.maximumf (F := Ideal) (φ := .f32)) x init h' hu (ix4 a b c d)
      = (Finset.univ : Finset (Fin n3)).fold max (init (Shape.Idx.first hu)) (fun k => x (ix5 a b c k d)) := by
  refine (Host.reduce_eq_fold_single (FloatOps.maximumf (F := Ideal) (φ := .f32)) x init h' h hu (ix4 a b c d)).trans ?_
  refine congrArg (fun f => (Finset.univ : Finset (Fin n3)).fold max (init (Shape.Idx.first hu)) f) (funext fun k => ?_)
  show x (h.lift (ix4 a b c d) k) = x (ix5 a b c k d)
  refine congrArg x (funext fun i => ?_)
  match i with
  | ⟨0, _⟩ => rfl
  | ⟨1, _⟩ => rfl
  | ⟨2, _⟩ => rfl
  | ⟨3, _⟩ => rfl
  | ⟨4, _⟩ => rfl

end Cert.LibMaxReduce

end
-- ==== Proof.KernelScales.lean ====
/-
  The kernel body's four pooling chains, each read at an index of what it produces. The body holds one image as a
  64 × 64 × 512 array and, for each scale s ∈ {1, 2, 4, 8}, regroups its rows into s bands, takes every column's
  greatest entry within a band, regroups the columns into s groups, takes the greatest within a group, and lists the
  s × s results row-major. A regrouping keeps every entry at its row-major position, so band p's row h is row
  p · (64/s) + h of the image, and likewise for the columns: row r of scale s's list is `Spp.tile` at
  (r / s, r % s).
-/
import proofs.«132213_j23235773071813_1_alg».proof.KernelIdeal
import proofs.«132213_j23235773071813_1_alg».proof.Proof.Spec
import proofs.«132213_j23235773071813_1_alg».proof.Proof.LibMaxReduce
import Idealize.ShloMosaic.Lib.Pipeline.Value

noncomputable section

namespace Cert.Spp

open Idealize.ShloMosaic Idealize.ShloMosaic.ValueIdx Cert.KernelIdeal Cert.LibMaxReduce

/-- Scale 1 of the pyramid as the body computes it from the image `v1` (64 × 64 × 512): the rows regrouped into 1 bands of 64,
    each column's greatest entry per band, the columns regrouped into 1 groups of 64, the greatest per group, and
    the 1 × 1 tiles listed in row-major order. Row `r` of the list is tile `(r / 1, r % 1)`. -/
theorem scale1 (v1 : FVec Ideal S64x64x512 .f32) (Y : Nat → Nat → Nat → Ideal .f32)
    (hv1 : ∀ (a : Fin 64) (w : Fin 64) (c : Fin 512), v1 (ix3 a w c) = Y a.val w.val c.val)
    (h1 : S64x64x512.ShapeCasts S1x64x64x512) (h2 : S1x64x64x512.Reduces [1] S1x64x512)
    (h3 : S1x64x512.ShapeCasts S1x1x64x512) (h4 : S1x1x64x512.Reduces [2] S1x1x512)
    (h5 : S1x1x512.ShapeCasts S1x512) (hφ : FKind.Formats .f32)
    (hacc : (0xFF800000#32 : BitVec 32) = FKind.maximumf.neutral .f32 hφ)
    (r : Fin 1) (c : Fin 512) :
    shapeCast S1x512 (multiReduction .maximumf [2] S1x1x512 (shapeCast S1x1x64x512
      (multiReduction .maximumf [1] S1x64x512 (shapeCast S1x64x64x512 v1 h1) 0xFF800000#32 h2 hφ hacc) h3)
        0xFF800000#32 h4 hφ hacc) h5 (ix2 r c)
      = tile 64 64 Y (r.val / 1) (r.val % 1) c.val := by
  have hr : r.val < 1 := r.isLt
  have e8 : ∀ (p : Fin 1) (w : Fin 64) (c : Fin 512),
      multiReduction .maximumf [1] S1x64x512 (shapeCast S1x64x64x512 v1 h1) 0xFF800000#32 h2 hφ hacc (ix3 p w c)
        = colmax 64 Y p.val w.val c.val := by
    intro p w c
    have hp : p.val < 1 := p.isLt
    refine (multiReduction_max_r4a1 (shapeCast S1x64x64x512 v1 h1) 0xFF800000#32 h2 hφ hacc p w c).trans ?_
    unfold colmax
    refine congrArg (fun f => (Finset.univ : Finset (Fin 64)).fold max bot f) (funext fun h => ?_)
    have hh : h.val < 64 := h.isLt
    refine (shapeCast_apply v1 h1 (ix4 p h w c) (ix3 (⟨p.val * 64 + h.val, by omega⟩ : Fin 64) w c) ?_).trans (hv1 _ _ _)
    rw [Shape.rowMajor_val_three, Shape.rowMajor_val_four]
    show ((p.val * 64 + h.val) * 64 + w.val) * 512 + c.val = ((p.val * 64 + h.val) * 64 + w.val) * 512 + c.val
    rfl
  generalize multiReduction .maximumf [1] S1x64x512 (shapeCast S1x64x64x512 v1 h1) 0xFF800000#32 h2 hφ hacc = v8 at e8 ⊢
  have e10 : ∀ (p q : Fin 1) (c : Fin 512),
      multiReduction .maximumf [2] S1x1x512 (shapeCast S1x1x64x512 v8 h3) 0xFF800000#32 h4 hφ hacc (ix3 p q c)
        = tile 64 64 Y p.val q.val c.val := by
    intro p q c
    have hp : p.val < 1 := p.isLt
    have hq : q.val < 1 := q.isLt
    refine (multiReduction_max_r4a2 (shapeCast S1x1x64x512 v8 h3) 0xFF800000#32 h4 hφ hacc p q c).trans ?_
    unfold tile
    refine congrArg (fun f => (Finset.univ : Finset (Fin 64)).fold max bot f) (funext fun k => ?_)
    have hk : k.val < 64 := k.isLt
    refine (shapeCast_apply v8 h3 (ix4 p q k c) (ix3 p (⟨q.val * 64 + k.val, by omega⟩ : Fin 64) c) ?_).trans (e8 _ _ _)
    rw [Shape.rowMajor_val_three, Shape.rowMajor_val_four]
    show (p.val * 64 + (q.val * 64 + k.val)) * 512 + c.val = ((p.val * 1 + q.val) * 64 + k.val) * 512 + c.val
    omega
  generalize multiReduction .maximumf [2] S1x1x512 (shapeCast S1x1x64x512 v8 h3) 0xFF800000#32 h4 hφ hacc = v10 at e10 ⊢
  refine (shapeCast_apply v10 h5 (ix2 r c) (ix3 (⟨r.val / 1, by omega⟩ : Fin 1) (⟨r.val % 1, by omega⟩ : Fin 1) c) ?_).trans (e10 _ _ _)
  rw [Shape.rowMajor_val_three, Shape.rowMajor_val_two]
  show (r.val / 1 * 1 + r.val % 1) * 512 + c.val = r.val * 512 + c.val
  omega

/-- Scale 2 of the pyramid as the body computes it from the image `v1` (64 × 64 × 512): the rows regrouped into 2 bands of 32,
    each column's greatest entry per band, the columns regrouped into 2 groups of 32, the greatest per group, and
    the 2 × 2 tiles listed in row-major order. Row `r` of the list is tile `(r / 2, r % 2)`. -/
theorem scale2 (v1 : FVec Ideal S64x64x512 .f32) (Y : Nat → Nat → Nat → Ideal .f32)
    (hv1 : ∀ (a : Fin 64) (w : Fin 64) (c : Fin 512), v1 (ix3 a w c) = Y a.val w.val c.val)
    (h1 : S64x64x512.ShapeCasts S2x32x64x512) (h2 : S2x32x64x512.Reduces [1] S2x64x512)
    (h3 : S2x64x512.ShapeCasts S2x2x32x512) (h4 : S2x2x32x512.Reduces [2] S2x2x512)
    (h5 : S2x2x512.ShapeCasts S4x512) (hφ : FKind.Formats .f32)
    (hacc : (0xFF800000#32 : BitVec 32) = FKind.maximumf.neutral .f32 hφ)
    (r : Fin 4) (c : Fin 512) :
    shapeCast S4x512 (multiReduction .maximumf [2] S2x2x512 (shapeCast S2x2x32x512
      (multiReduction .maximumf [1] S2x64x512 (shapeCast S2x32x64x512 v1 h1) 0xFF800000#32 h2 hφ hacc) h3)
        0xFF800000#32 h4 hφ hacc) h5 (ix2 r c)
      = tile 32 32 Y (r.val / 2) (r.val % 2) c.val := by
  have hr : r.val < 4 := r.isLt
  have e8 : ∀ (p : Fin 2) (w : Fin 64) (c : Fin 512),
      multiReduction .maximumf [1] S2x64x512 (shapeCast S2x32x64x512 v1 h1) 0xFF800000#32 h2 hφ hacc (ix3 p w c)
        = colmax 32 Y p.val w.val c.val := by
    intro p w c
    have hp : p.val < 2 := p.isLt
    refine (multiReduction_max_r4a1 (shapeCast S2x32x64x512 v1 h1) 0xFF800000#32 h2 hφ hacc p w c).trans ?_
    unfold colmax
    refine congrArg (fun f => (Finset.univ : Finset (Fin 32)).fold max bot f) (funext fun h => ?_)
    have hh : h.val < 32 := h.isLt
    refine (shapeCast_apply v1 h1 (ix4 p h w c) (ix3 (⟨p.val * 32 + h.val, by omega⟩ : Fin 64) w c) ?_).trans (hv1 _ _ _)
    rw [Shape.rowMajor_val_three, Shape.rowMajor_val_four]
    show ((p.val * 32 + h.val) * 64 + w.val) * 512 + c.val = ((p.val * 32 + h.val) * 64 + w.val) * 512 + c.val
    rfl
  generalize multiReduction .maximumf [1] S2x64x512 (shapeCast S2x32x64x512 v1 h1) 0xFF800000#32 h2 hφ hacc = v8 at e8 ⊢
  have e10 : ∀ (p q : Fin 2) (c : Fin 512),
      multiReduction .maximumf [2] S2x2x512 (shapeCast S2x2x32x512 v8 h3) 0xFF800000#32 h4 hφ hacc (ix3 p q c)
        = tile 32 32 Y p.val q.val c.val := by
    intro p q c
    have hp : p.val < 2 := p.isLt
    have hq : q.val < 2 := q.isLt
    refine (multiReduction_max_r4a2 (shapeCast S2x2x32x512 v8 h3) 0xFF800000#32 h4 hφ hacc p q c).trans ?_
    unfold tile
    refine congrArg (fun f => (Finset.univ : Finset (Fin 32)).fold max bot f) (funext fun k => ?_)
    have hk : k.val < 32 := k.isLt
    refine (shapeCast_apply v8 h3 (ix4 p q k c) (ix3 p (⟨q.val * 32 + k.val, by omega⟩ : Fin 64) c) ?_).trans (e8 _ _ _)
    rw [Shape.rowMajor_val_three, Shape.rowMajor_val_four]
    show (p.val * 64 + (q.val * 32 + k.val)) * 512 + c.val = ((p.val * 2 + q.val) * 32 + k.val) * 512 + c.val
    omega
  generalize multiReduction .maximumf [2] S2x2x512 (shapeCast S2x2x32x512 v8 h3) 0xFF800000#32 h4 hφ hacc = v10 at e10 ⊢
  refine (shapeCast_apply v10 h5 (ix2 r c) (ix3 (⟨r.val / 2, by omega⟩ : Fin 2) (⟨r.val % 2, by omega⟩ : Fin 2) c) ?_).trans (e10 _ _ _)
  rw [Shape.rowMajor_val_three, Shape.rowMajor_val_two]
  show (r.val / 2 * 2 + r.val % 2) * 512 + c.val = r.val * 512 + c.val
  omega

/-- Scale 4 of the pyramid as the body computes it from the image `v1` (64 × 64 × 512): the rows regrouped into 4 bands of 16,
    each column's greatest entry per band, the columns regrouped into 4 groups of 16, the greatest per group, and
    the 4 × 4 tiles listed in row-major order. Row `r` of the list is tile `(r / 4, r % 4)`. -/
theorem scale4 (v1 : FVec Ideal S64x64x512 .f32) (Y : Nat → Nat → Nat → Ideal .f32)
    (hv1 : ∀ (a : Fin 64) (w : Fin 64) (c : Fin 512), v1 (ix3 a w c) = Y a.val w.val c.val)
    (h1 : S64x64x512.ShapeCasts S4x16x64x512) (h2 : S4x16x64x512.Reduces [1] S4x64x512)
    (h3 : S4x64x512.ShapeCasts S4x4x16x512) (h4 : S4x4x16x512.Reduces [2] S4x4x512)
    (h5 : S4x4x512.ShapeCasts S16x512) (hφ : FKind.Formats .f32)
    (hacc : (0xFF800000#32 : BitVec 32) = FKind.maximumf.neutral .f32 hφ)
    (r : Fin 16) (c : Fin 512) :
    shapeCast S16x512 (multiReduction .maximumf [2] S4x4x512 (shapeCast S4x4x16x512
      (multiReduction .maximumf [1] S4x64x512 (shapeCast S4x16x64x512 v1 h1) 0xFF800000#32 h2 hφ hacc) h3)
        0xFF800000#32 h4 hφ hacc) h5 (ix2 r c)
      = tile 16 16 Y (r.val / 4) (r.val % 4) c.val := by
  have hr : r.val < 16 := r.isLt
  have e8 : ∀ (p : Fin 4) (w : Fin 64) (c : Fin 512),
      multiReduction .maximumf [1] S4x64x512 (shapeCast S4x16x64x512 v1 h1) 0xFF800000#32 h2 hφ hacc (ix3 p w c)
        = colmax 16 Y p.val w.val c.val := by
    intro p w c
    have hp : p.val < 4 := p.isLt
    refine (multiReduction_max_r4a1 (shapeCast S4x16x64x512 v1 h1) 0xFF800000#32 h2 hφ hacc p w c).trans ?_
    unfold colmax
    refine congrArg (fun f => (Finset.univ : Finset (Fin 16)).fold max bot f) (funext fun h => ?_)
    have hh : h.val < 16 := h.isLt
    refine (shapeCast_apply v1 h1 (ix4 p h w c) (ix3 (⟨p.val * 16 + h.val, by omega⟩ : Fin 64) w c) ?_).trans (hv1 _ _ _)
    rw [Shape.rowMajor_val_three, Shape.rowMajor_val_four]
    show ((p.val * 16 + h.val) * 64 + w.val) * 512 + c.val = ((p.val * 16 + h.val) * 64 + w.val) * 512 + c.val
    rfl
  generalize multiReduction .maximumf [1] S4x64x512 (shapeCast S4x16x64x512 v1 h1) 0xFF800000#32 h2 hφ hacc = v8 at e8 ⊢
  have e10 : ∀ (p q : Fin 4) (c : Fin 512),
      multiReduction .maximumf [2] S4x4x512 (shapeCast S4x4x16x512 v8 h3) 0xFF800000#32 h4 hφ hacc (ix3 p q c)
        = tile 16 16 Y p.val q.val c.val := by
    intro p q c
    have hp : p.val < 4 := p.isLt
    have hq : q.val < 4 := q.isLt
    refine (multiReduction_max_r4a2 (shapeCast S4x4x16x512 v8 h3) 0xFF800000#32 h4 hφ hacc p q c).trans ?_
    unfold tile
    refine congrArg (fun f => (Finset.univ : Finset (Fin 16)).fold max bot f) (funext fun k => ?_)
    have hk : k.val < 16 := k.isLt
    refine (shapeCast_apply v8 h3 (ix4 p q k c) (ix3 p (⟨q.val * 16 + k.val, by omega⟩ : Fin 64) c) ?_).trans (e8 _ _ _)
    rw [Shape.rowMajor_val_three, Shape.rowMajor_val_four]
    show (p.val * 64 + (q.val * 16 + k.val)) * 512 + c.val = ((p.val * 4 + q.val) * 16 + k.val) * 512 + c.val
    omega
  generalize multiReduction .maximumf [2] S4x4x512 (shapeCast S4x4x16x512 v8 h3) 0xFF800000#32 h4 hφ hacc = v10 at e10 ⊢
  refine (shapeCast_apply v10 h5 (ix2 r c) (ix3 (⟨r.val / 4, by omega⟩ : Fin 4) (⟨r.val % 4, by omega⟩ : Fin 4) c) ?_).trans (e10 _ _ _)
  rw [Shape.rowMajor_val_three, Shape.rowMajor_val_two]
  show (r.val / 4 * 4 + r.val % 4) * 512 + c.val = r.val * 512 + c.val
  omega

/-- Scale 8 of the pyramid as the body computes it from the image `v1` (64 × 64 × 512): the rows regrouped into 8 bands of 8,
    each column's greatest entry per band, the columns regrouped into 8 groups of 8, the greatest per group, and
    the 8 × 8 tiles listed in row-major order. Row `r` of the list is tile `(r / 8, r % 8)`. -/
theorem scale8 (v1 : FVec Ideal S64x64x512 .f32) (Y : Nat → Nat → Nat → Ideal .f32)
    (hv1 : ∀ (a : Fin 64) (w : Fin 64) (c : Fin 512), v1 (ix3 a w c) = Y a.val w.val c.val)
    (h1 : S64x64x512.ShapeCasts S8x8x64x512) (h2 : S8x8x64x512.Reduces [1] S8x64x512)
    (h3 : S8x64x512.ShapeCasts S8x8x8x512) (h4 : S8x8x8x512.Reduces [2] S8x8x512)
    (h5 : S8x8x512.ShapeCasts S64x512) (hφ : FKind.Formats .f32)
    (hacc : (0xFF800000#32 : BitVec 32) = FKind.maximumf.neutral .f32 hφ)
    (r : Fin 64) (c : Fin 512) :
    shapeCast S64x512 (multiReduction .maximumf [2] S8x8x512 (shapeCast S8x8x8x512
      (multiReduction .maximumf [1] S8x64x512 (shapeCast S8x8x64x512 v1 h1) 0xFF800000#32 h2 hφ hacc) h3)
        0xFF800000#32 h4 hφ hacc) h5 (ix2 r c)
      = tile 8 8 Y (r.val / 8) (r.val % 8) c.val := by
  have hr : r.val < 64 := r.isLt
  have e8 : ∀ (p : Fin 8) (w : Fin 64) (c : Fin 512),
      multiReduction .maximumf [1] S8x64x512 (shapeCast S8x8x64x512 v1 h1) 0xFF800000#32 h2 hφ hacc (ix3 p w c)
        = colmax 8 Y p.val w.val c.val := by
    intro p w c
    have hp : p.val < 8 := p.isLt
    refine (multiReduction_max_r4a1 (shapeCast S8x8x64x512 v1 h1) 0xFF800000#32 h2 hφ hacc p w c).trans ?_
    unfold colmax
    refine congrArg (fun f => (Finset.univ : Finset (Fin 8)).fold max bot f) (funext fun h => ?_)
    have hh : h.val < 8 := h.isLt
    refine (shapeCast_apply v1 h1 (ix4 p h w c) (ix3 (⟨p.val * 8 + h.val, by omega⟩ : Fin 64) w c) ?_).trans (hv1 _ _ _)
    rw [Shape.rowMajor_val_three, Shape.rowMajor_val_four]
    show ((p.val * 8 + h.val) * 64 + w.val) * 512 + c.val = ((p.val * 8 + h.val) * 64 + w.val) * 512 + c.val
    rfl
  generalize multiReduction .maximumf [1] S8x64x512 (shapeCast S8x8x64x512 v1 h1) 0xFF800000#32 h2 hφ hacc = v8 at e8 ⊢
  have e10 : ∀ (p q : Fin 8) (c : Fin 512),
      multiReduction .maximumf [2] S8x8x512 (shapeCast S8x8x8x512 v8 h3) 0xFF800000#32 h4 hφ hacc (ix3 p q c)
        = tile 8 8 Y p.val q.val c.val := by
    intro p q c
    have hp : p.val < 8 := p.isLt
    have hq : q.val < 8 := q.isLt
    refine (multiReduction_max_r4a2 (shapeCast S8x8x8x512 v8 h3) 0xFF800000#32 h4 hφ hacc p q c).trans ?_
    unfold tile
    refine congrArg (fun f => (Finset.univ : Finset (Fin 8)).fold max bot f) (funext fun k => ?_)
    have hk : k.val < 8 := k.isLt
    refine (shapeCast_apply v8 h3 (ix4 p q k c) (ix3 p (⟨q.val * 8 + k.val, by omega⟩ : Fin 64) c) ?_).trans (e8 _ _ _)
    rw [Shape.rowMajor_val_three, Shape.rowMajor_val_four]
    show (p.val * 64 + (q.val * 8 + k.val)) * 512 + c.val = ((p.val * 8 + q.val) * 8 + k.val) * 512 + c.val
    omega
  generalize multiReduction .maximumf [2] S8x8x512 (shapeCast S8x8x8x512 v8 h3) 0xFF800000#32 h4 hφ hacc = v10 at e10 ⊢
  refine (shapeCast_apply v10 h5 (ix2 r c) (ix3 (⟨r.val / 8, by omega⟩ : Fin 8) (⟨r.val % 8, by omega⟩ : Fin 8) c) ?_).trans (e10 _ _ _)
  rw [Shape.rowMajor_val_three, Shape.rowMajor_val_two]
  show (r.val / 8 * 8 + r.val % 8) * 512 + c.val = r.val * 512 + c.val
  omega

end Cert.Spp

end
-- ==== Proof.KernelPayload.lean ====
/-
  What the kernel body stores for one image, read at an index: row `r`, channel `c` of the 1 × 85 × 512 block it writes is
  row `r` of the image's pyramid (`Spp.bins`). The body lists the four scales' tiles one after the other (1, 4, 16 and 64
  rows), so row `r` falls in the scale whose stretch holds it, at `r` less the rows before the stretch.
-/
import proofs.«132213_j23235773071813_1_alg».proof.Proof.Gen.KernelIdeal.Skeleton
import proofs.«132213_j23235773071813_1_alg».proof.Proof.KernelScales

noncomputable section

namespace Cert.Spp

open Idealize.ShloMosaic Idealize.ShloMosaic.ValueIdx Cert.KernelIdeal Cert.KernelIdeal.Gen Cert.LibMaxReduce

/-- The block with its leading unit axis dropped is the image: entry `(a, w, c)` is the block's `(0, a, w, c)`. -/
theorem image_apply (x0 : Vec Ideal S1x64x64x512 .f32) (h1 : S1x64x64x512.ShapeCasts S64x64x512)
    (a : Fin 64) (w : Fin 64) (c : Fin 512) :
    shapeCast S64x64x512 x0 h1 (ix3 a w c) = blk x0 a.val w.val c.val := by
  refine (shapeCast_apply x0 h1 (ix3 a w c) (ix4 (0 : Fin 1) a w c) ?_).trans (blk_eq x0 _ _ _ _ rfl rfl rfl)
  rw [Shape.rowMajor_val_four, Shape.rowMajor_val_three]
  show ((0 * 64 + a.val) * 64 + w.val) * 512 + c.val = (a.val * 64 + w.val) * 512 + c.val
  omega

/-- Four lists of 1, 4, 16 and 64 rows joined along the rows, read at row `r`: the list whose stretch holds `r`, at `r`
    less the rows before it. -/
theorem joined_apply (y1 : FVec Ideal S1x512 .f32) (y2 : FVec Ideal S4x512 .f32) (y3 : FVec Ideal S16x512 .f32)
    (y4 : FVec Ideal S64x512 .f32) (hcat : Shape.Concatenates [S1x512, S4x512, S16x512, S64x512] S85x512 0)
    (r : Fin 85) (c : Fin 512) :
    concatenate S85x512 0 [⟨S1x512, y1⟩, ⟨S4x512, y2⟩, ⟨S16x512, y3⟩, ⟨S64x512, y4⟩] hcat (ix2 r c)
      = if h1 : r.val < 1 then y1 (ix2 (⟨r.val, h1⟩ : Fin 1) c)
        else if h2 : r.val < 5 then y2 (ix2 (⟨r.val - 1, by omega⟩ : Fin 4) c)
        else if h3 : r.val < 21 then y3 (ix2 (⟨r.val - 5, by omega⟩ : Fin 16) c)
        else y4 (ix2 (⟨r.val - 21, by have := r.isLt; omega⟩ : Fin 64) c) := by
  have hr : r.val < 85 := r.isLt
  by_cases h1 : r.val < 1
  · rw [dif_pos h1]
    exact concatenate_apply_piece (t := S85x512) (0 : Fin 2) [⟨S1x512, y1⟩, ⟨S4x512, y2⟩, ⟨S16x512, y3⟩, ⟨S64x512, y4⟩] hcat (ix2 r c) 0 (by show (0 : Nat) < 4; omega) S1x512 y1 rfl rfl 0 (by rfl)
      (ix2 (⟨r.val, h1⟩ : Fin 1) c)
      (fun b hb => by match b with | ⟨0, _⟩ => exact absurd rfl hb | ⟨1, _⟩ => rfl)
      (by show 0 + r.val = r.val; omega)
  rw [dif_neg h1]
  by_cases h2 : r.val < 5
  · rw [dif_pos h2]
    exact concatenate_apply_piece (t := S85x512) (0 : Fin 2) [⟨S1x512, y1⟩, ⟨S4x512, y2⟩, ⟨S16x512, y3⟩, ⟨S64x512, y4⟩] hcat (ix2 r c) 1 (by show (1 : Nat) < 4; omega) S4x512 y2 rfl rfl 1 (by rfl)
      (ix2 (⟨r.val - 1, by omega⟩ : Fin 4) c)
      (fun b hb => by match b with | ⟨0, _⟩ => exact absurd rfl hb | ⟨1, _⟩ => rfl)
      (by show 1 + (r.val - 1) = r.val; omega)
  rw [dif_neg h2]
  by_cases h3 : r.val < 21
  · rw [dif_pos h3]
    exact concatenate_apply_piece (t := S85x512) (0 : Fin 2) [⟨S1x512, y1⟩, ⟨S4x512, y2⟩, ⟨S16x512, y3⟩, ⟨S64x512, y4⟩] hcat (ix2 r c) 2 (by show (2 : Nat) < 4; omega) S16x512 y3 rfl rfl 5 (by rfl)
      (ix2 (⟨r.val - 5, by omega⟩ : Fin 16) c)
      (fun b hb => by match b with | ⟨0, _⟩ => exact absurd rfl hb | ⟨1, _⟩ => rfl)
      (by show 5 + (r.val - 5) = r.val; omega)
  rw [dif_neg h3]
  exact concatenate_apply_piece (t := S85x512) (0 : Fin 2) [⟨S1x512, y1⟩, ⟨S4x512, y2⟩, ⟨S16x512, y3⟩, ⟨S64x512, y4⟩] hcat (ix2 r c) 3 (by show (3 : Nat) < 4; omega) S64x512 y4 rfl rfl 21 (by rfl)
    (ix2 (⟨r.val - 21, by omega⟩ : Fin 64) c)
    (fun b hb => by match b with | ⟨0, _⟩ => exact absurd rfl hb | ⟨1, _⟩ => rfl)
    (by show 21 + (r.val - 21) = r.val; omega)

/-- The body's stored value at `(0, r, c)`: row `r`, channel `c` of the image's pyramid. -/
theorem payload_apply (x0 : Vec Ideal S1x64x64x512 .f32) (r : Fin 85) (c : Fin 512) :
    k0_pay1 (F := Ideal) x0 (ix3 (0 : Fin 1) r c) = bins (blk x0) r.val c.val := by
  have hr : r.val < 85 := r.isLt
  unfold k0_pay1
  dsimp only
  refine (shapeCast_apply _ Facts₀.shapeCasts_S85x512_S1x85x512 (ix3 (0 : Fin 1) r c) (ix2 r c) ?_).trans ?_
  · rw [Shape.rowMajor_val_two, Shape.rowMajor_val_three]
    show r.val * 512 + c.val = (0 * 85 + r.val) * 512 + c.val
    omega
  refine (joined_apply _ _ _ _ _ r c).trans ?_
  unfold bins
  by_cases h1 : r.val < 1
  · rw [dif_pos h1, if_pos h1]
    refine (scale1 _ (blk x0) (image_apply x0 _) _ _ _ _ _ _ _ _ c).trans ?_
    have e : r.val = 0 := by omega
    show tile 64 64 (blk x0) (r.val / 1) (r.val % 1) c.val = _
    rw [e]
  rw [dif_neg h1, if_neg h1]
  by_cases h2 : r.val < 5
  · rw [dif_pos h2, if_pos h2]
    exact scale2 _ (blk x0) (image_apply x0 _) _ _ _ _ _ _ _ _ c
  rw [dif_neg h2, if_neg h2]
  by_cases h3 : r.val < 21
  · rw [dif_pos h3, if_pos h3]
    exact scale4 _ (blk x0) (image_apply x0 _) _ _ _ _ _ _ _ _ c
  rw [dif_neg h3, if_neg h3]
  exact scale8 _ (blk x0) (image_apply x0 _) _ _ _ _ _ _ _ _ c

end Cert.Spp

end
-- ==== Proof.KernelValue.lean ====
/-
  The kernel program's result as one function of its argument. The grid has one point per image: point `t` stages image
  `t` of the batch (block `t` of the 32 × 64 × 64 × 512 argument along its first axis), the body stores that image's
  85 pyramid rows, and the rows are written back as block `t` of the 32 × 85 × 512 array; the 32 blocks tile that
  array, so it ends holding `Spp.pooled` of the argument. The host line after the region only re-lists each image's
  85 × 512 entries as one row of 43520.
-/
import proofs.«132213_j23235773071813_1_alg».proof.Proof.Gen.KernelIdeal.Frame
import proofs.«132213_j23235773071813_1_alg».proof.Proof.KernelPayload
import Idealize.ShloMosaic.Lib.Pipeline.Value
import Idealize.ShloMosaic.Lib.StableHlo.Run

set_option maxRecDepth 16384

noncomputable section

namespace Cert.KernelIdeal.Pooled

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spp

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The printed index maps over the grid: point `t` takes block `t` along the first axis and block 0 along the others,
    of the argument and of the result alike. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

/-- The argument array as the region finds it, and point `t`'s staged block of it, at their literal types. -/
abbrev xarr (c : Dev nD) : Vec Ideal S32x64x64x512 .f32 := V m c main_arg0
abbrev xblk (c : Dev nD) (t : Fin cfg0.N) : Vec Ideal S1x64x64x512 .f32 := iblk m c 0 t

/-- Point `t`'s block is image `t` of the batch. -/
theorem xblk_eq (c : Dev nD) (t : Fin cfg0.N) : blk (xblk m c t) = img (xarr m c) t.val := by
  obtain ⟨e0, e1, e2, e3, -, -, -⟩ := idx_facts t
  have ht : t.val < 32 := Nat.lt_of_lt_of_eq (show t.val < grid0.N from t.isLt) N_0
  funext h w ch
  unfold blk img
  by_cases hh : h < 64 ∧ w < 64 ∧ ch < 512
  · rw [dif_pos hh, dif_pos ⟨ht, hh⟩]
    show V m c main_arg0 (((cfg0.win 0).blk t).view.emb (ix4 (0 : Fin 1) ⟨h, hh.1⟩ ⟨w, hh.2.1⟩ ⟨ch, hh.2.2⟩)) = V m c main_arg0 _
    refine congrArg (V m c main_arg0) (funext fun a => Fin.ext ?_)
    match a with
    | ⟨0, _⟩ => show win0_0.index t (0 : Fin 4) * 1 + 1 * 0 = t.val; omega
    | ⟨1, _⟩ => show win0_0.index t (1 : Fin 4) * 64 + 1 * h = h; omega
    | ⟨2, _⟩ => show win0_0.index t (2 : Fin 4) * 64 + 1 * w = w; omega
    | ⟨3, _⟩ => show win0_0.index t (3 : Fin 4) * 512 + 1 * ch = ch; omega
  · rw [dif_neg hh, dif_neg (fun h' => hh h'.2)]

/-- What the body stores for a block that is image `tv` of `x`, at an index of the block, is `pooled x` at the index
    with the same row and channel in image `tv`. -/
theorem stored_eq (x : Vec Ideal S32x64x64x512 .f32) (x0 : Vec Ideal S1x64x64x512 .f32) (tv : Nat) (hx : blk x0 = img x tv)
    (j : S1x85x512.Idx) (i : S32x85x512.Idx) (h0 : (i 0).val = tv) (h1 : (i 1).val = (j 1).val) (h2 : (i 2).val = (j 2).val) :
    k0_pay1 (F := Ideal) x0 j = pooled x i := by
  obtain ⟨a, r, ch, rfl⟩ : ∃ (a : Fin 1) (r : Fin 85) (ch : Fin 512), j = ix3 a r ch := ⟨j 0, j 1, j 2, eq_ix3 j⟩
  have ha : a = (0 : Fin 1) := Fin.ext (by have h : a.val < 1 := a.isLt; show a.val = 0; omega)
  subst ha
  rw [payload_apply, hx]
  unfold pooled
  rw [h0, h1, h2]

/-- WHAT POINT `t` WRITES BACK is block `t` of `pooled` of the argument array. -/
theorem flushed_eq (c : Dev nD) (t : Fin cfg0.N) :
    (dats m 0 c).flushed 1 t = ((cfg0.win 1).blk t).view.read (Elt Ideal) (pooled (xarr m c)) := by
  obtain ⟨-, -, -, -, e4, e5, e6⟩ := idx_facts t
  show (cfg0.win 1).cut (grid0.coords t) ((dats m 0 c).after 1 t) = _
  rw [after0_1]
  unfold out0_1
  rw [View.canon_unit_zero hz3]
  simp only [View.ld_unit_zero (S := S1x64x64x512) hz4]
  funext j
  show k0_pay1 (F := Ideal) (xblk m c t) j = pooled (xarr m c) (((cfg0.win 1).blk t).view.emb j)
  have hj0 : (j 0).val < 1 := (j 0).isLt
  refine stored_eq (xarr m c) (xblk m c t) t.val (xblk_eq m c t) j _ ?_ ?_ ?_
  · show win0_1.index t (0 : Fin 3) * 1 + 1 * (j 0).val = t.val; omega
  · show win0_1.index t (1 : Fin 3) * 85 + 1 * (j 1).val = (j 1).val; omega
  · show win0_1.index t (2 : Fin 3) * 512 + 1 * (j 2).val = (j 2).val; omega

/-- An index of the result array is in point `t`'s block iff each coordinate is in the block's range on its axis. -/
theorem mem_blk (t : Fin cfg0.N) (i : S32x85x512.Idx) :
    i ∈ ((cfg0.win 1).blk t).view.set ↔ ∀ a : Fin 3, win0_1.index t a * S1x85x512.size a ≤ (i a).val ∧ (i a).val < win0_1.index t a * S1x85x512.size a + S1x85x512.size a := by
  show i ∈ ((View.whole main_v0).slice (win0_1.rect t)).set ↔ _
  rw [View.set_slice_whole, Rect.mem_set_unit]
  exact Iff.rfl

/-- The 32 blocks tile the result array: image `b`'s rows are point `b`'s block. -/
theorem covered (i : S32x85x512.Idx) : ∃ t : Fin cfg0.N, (cfg0.win 1).flush t = true ∧ i ∈ ((cfg0.win 1).blk t).view.set := by
  have h0 : (i 0).val < 32 := (i 0).isLt
  have h1 : (i 1).val < 85 := (i 1).isLt
  have h2 : (i 2).val < 512 := (i 2).isLt
  let t : Fin cfg0.N := ⟨(i 0).val, Nat.lt_of_lt_of_eq h0 N_0.symm⟩
  obtain ⟨-, -, -, -, e4, e5, e6⟩ := idx_facts t
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; rw [e4]; show (i 0).val * 1 ≤ (i 0).val ∧ (i 0).val < (i 0).val * 1 + 1; omega
  | ⟨1, _⟩ => show win0_1.index t (1 : Fin 3) * 85 ≤ (i 1).val ∧ (i 1).val < win0_1.index t (1 : Fin 3) * 85 + 85; omega
  | ⟨2, _⟩ => show win0_1.index t (2 : Fin 3) * 512 ≤ (i 2).val ∧ (i 2).val < win0_1.index t (2 : Fin 3) * 512 + 512; omega

/-- THE ARRAY after the region: `pooled` of the argument. -/
theorem final (c : Dev nD) : (dats m 0 c).arrAt 1 cfg0.N = pooled (m ((c : Thread nD τ).loc main_arg0)) :=
  (dats m 0 c).arrAt_eq_of_cover 1 (pooled (xarr m c)) (fun t _ => flushed_eq m c t) covered

/-- The host line after the region re-lists the array's entries, image by image. -/
theorem tail_eq (c : Dev nD) :
    Pipeline.afterTail₀ cfgs (dats m) 0 (V0 m) [hostOps1] c main_v1
      = shapeCast S32x43520 (pooled (m ((c : Thread nD τ).loc main_arg0))) Facts₀.shapeCasts_S32x85x512_S32x43520 := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = pooled (m ((c : Thread nD τ).loc main_arg0)) :=
    (Pipeline.withArrays_arr spec0 launch0.win.arr_inj c (V0 m c) (fun w => (dats m 0 c).arrAt w cfg0.N) 1).trans (final m c)
  funext i
  show shapeCast S32x43520 (Pipeline.withArrays (cfgs 0).spec c (V0 m c) (fun w => (dats m 0 c).arrAt w (cfgs 0).N)
    (Proc.devRef .tc main_v0)) Facts₀.shapeCasts_S32x85x512_S32x43520 i = _
  rw [e]

/-- The result buffer is no array of the pipeline: the host line after the region is what writes it. -/
theorem result_rest : main_v1 ∈ Pipeline.restRefs sig (cfgs 0).spec :=
  Pipeline.mem_restRefs_of main_v1 rfl (fun w => by fin_cases w <;> decide)

/-- THE RUN, READ: every weakly fair execution of the kernel program ends with its result at the pyramid of its
    argument, re-listed image by image, and the argument unchanged. -/
theorem run : θ_run defs (onTc (τ := τ) (main (F := Ideal))) ⟨m, fun _ => 0, ρ⟩ fun r => ∀ c : Dev nD,
      r.2.mem ((c.tc : Thread nD τ).loc main_v1)
        = shapeCast S32x43520 (pooled (m ((c.tc : Thread nD τ).loc main_arg0))) Facts₀.shapeCasts_S32x85x512_S32x43520
      ∧ r.2.mem ((c.tc : Thread nD τ).loc main_arg0) = m ((c.tc : Thread nD τ).loc main_arg0) :=
  (θ_run defs _ _).mono (fun r h c => ⟨((h c).2 main_v1 result_rest).trans (tail_eq m c),
      ((h c).1 0).trans (((dats m 0 c).arrAt_in 0 rfl _).trans ((A_eq m c 0).trans (V_main_arg0 m c)))⟩)
    (run_main m ρ)

end Cert.KernelIdeal.Pooled

end
-- ==== Proof.RefScales.lean ====
/-
  The reference's pooling at the scales 2, 4 and 8, read at an index. For the rows and then for the columns it cuts an
  axis of 64 into s bands of 64/s, reduces the first s − 1 bands together (a slice regrouped and reduced over the new
  inner axis) and the last band by itself (the remaining slice reduced), and joins the two along the band axis: band p
  of the result holds the greatest entry over positions p · (64/s), …, p · (64/s) + 64/s − 1, whichever of the two
  pieces it falls in. Every step is stated over an arbitrary input array and arbitrary evidence of the shape relations.
-/
import proofs.«132213_j23235773071813_1_alg».proof.ReferenceIdeal
import proofs.«132213_j23235773071813_1_alg».proof.Proof.Spec
import proofs.«132213_j23235773071813_1_alg».proof.Proof.LibMaxReduce
import Idealize.ShloMosaic.Lib.Pipeline.Value

noncomputable section

namespace Cert.Spp

open Idealize.ShloMosaic Idealize.ShloMosaic.ValueIdx Cert.ReferenceIdeal Cert.LibMaxReduce

/-- Scale 2, the rows: the reference takes the first 1 band of 32 rows together (a slice of 32 rows regrouped as 1 × 32 and
    reduced over the 32) and the last band by itself (the remaining 32 rows reduced), and joins the two along the band
    axis. Band `p`, column `w`, channel `c` of the result is the column's greatest entry over band `p`'s rows. -/
theorem heightPool2 (x : FVec Ideal S32x64x64x512 .f32) (cst1 cst2 : FVec Ideal S_ .f32)
    (hc1 : ∀ i, cst1 i = bot) (hc2 : ∀ i, cst2 i = bot)
    (f1 : S32x64x64x512.Slices ![0, 0, 0, 0] S32x32x64x512) (f2 : S32x32x64x512.ShapeCasts S32x1x32x64x512) (f3 : S32x1x32x64x512.ReducesTo [2] S32x1x64x512)
    (f4 : S32x64x64x512.Slices ![0, 32, 0, 0] S32x32x64x512) (f5 : S32x32x64x512.ReducesTo [1] S32x64x512)
    (f6 : S32x64x512.BroadcastsInDim S32x1x64x512 (![0, 2, 3] : Fin 3 → Fin S32x1x64x512.rank))
    (f7 : Shape.Concatenates [S32x1x64x512, S32x1x64x512] S32x2x64x512 1) (hu : 0 < S_.numel)
    (b : Fin 32) (p : Fin 2) (w : Fin 64) (c : Fin 512) :
    concatenate S32x2x64x512 1
      [⟨S32x1x64x512, Host.reduce FloatOps.maximumf (shapeCast S32x1x32x64x512 (extractStridedSlice S32x32x64x512 ![0, 0, 0, 0] x f1) f2) cst1 f3 hu⟩,
       ⟨S32x1x64x512, broadcastInDim S32x1x64x512 ![0, 2, 3] f6 (Host.reduce FloatOps.maximumf (extractStridedSlice S32x32x64x512 ![0, 32, 0, 0] x f4) cst2 f5 hu)⟩]
      f7 (ix4 b p w c)
      = colmax 32 (img x b.val) p.val w.val c.val := by
  have hb : b.val < 32 := b.isLt
  have hp : p.val < 2 := p.isLt
  have hw : w.val < 64 := w.isLt
  have hc : c.val < 512 := c.isLt
  generalize hA : Host.reduce FloatOps.maximumf (shapeCast S32x1x32x64x512 (extractStridedSlice S32x32x64x512 ![0, 0, 0, 0] x f1) f2) cst1 f3 hu = A
  generalize hB : broadcastInDim S32x1x64x512 ![0, 2, 3] f6 (Host.reduce FloatOps.maximumf (extractStridedSlice S32x32x64x512 ![0, 32, 0, 0] x f4) cst2 f5 hu) = B
  by_cases hpm : p.val < 1
  · have hL := concatenate_pair_apply_left (α := Ideal .f32) (t := S32x2x64x512) (s₁ := S32x1x64x512) (s₂ := S32x1x64x512) 1 A B f7
    refine (hL (ix4 b p w c) rfl (ix4 b (⟨p.val, hpm⟩ : Fin 1) w c)
      (fun a => by match a with | ⟨0, _⟩ => rfl | ⟨1, _⟩ => rfl | ⟨2, _⟩ => rfl | ⟨3, _⟩ => rfl)).trans ?_
    subst hA
    have h3 : S32x1x32x64x512.Reduces [2] S32x1x64x512 := ⟨f3.1, by decide, f3.2⟩
    generalize hY : shapeCast S32x1x32x64x512 (extractStridedSlice S32x32x64x512 ![0, 0, 0, 0] x f1) f2 = Y
    refine (hostReduce_max_r5a2 Y cst1 f3 h3 hu b (⟨p.val, hpm⟩ : Fin 1) w c).trans ?_
    subst hY
    rw [hc1]
    unfold colmax
    refine congrArg (fun f => (Finset.univ : Finset (Fin 32)).fold max bot f) (funext fun k => ?_)
    have hk : k.val < 32 := k.isLt
    refine (shapeCast_apply (extractStridedSlice S32x32x64x512 ![0, 0, 0, 0] x f1) f2 (ix5 b (⟨p.val, hpm⟩ : Fin 1) k w c)
      (ix4 b (⟨p.val * 32 + k.val, by omega⟩ : Fin 32) w c) ?_).trans ?_
    · rw [Shape.rowMajor_val_four, Shape.rowMajor_val_five]
      show ((b.val * 32 + (p.val * 32 + k.val)) * 64 + w.val) * 512 + c.val
        = ((((b.val * 1 + p.val) * 32 + k.val) * 64 + w.val) * 512 + c.val)
      omega
    refine (extractStridedSlice_apply ![0, 0, 0, 0] x f1 (ix4 b (⟨p.val * 32 + k.val, by omega⟩ : Fin 32) w c)
      (ix4 b (⟨p.val * 32 + k.val, by omega⟩ : Fin 64) w c) (fun a => by
        match a with
        | ⟨0, _⟩ => show b.val = 0 + b.val; omega
        | ⟨1, _⟩ => show p.val * 32 + k.val = 0 + (p.val * 32 + k.val); omega
        | ⟨2, _⟩ => show w.val = 0 + w.val; omega
        | ⟨3, _⟩ => show c.val = 0 + c.val; omega)).trans ?_
    exact img_eq x _ b.val (p.val * 32 + k.val) w.val c.val rfl rfl rfl rfl
  · have hpe : p.val = 1 := by omega
    have hR := concatenate_pair_apply_right (α := Ideal .f32) (t := S32x2x64x512) (s₁ := S32x1x64x512) (s₂ := S32x1x64x512) 1 A B f7
    refine (hR (ix4 b p w c) rfl rfl (ix4 b (0 : Fin 1) w c)
      (fun a ha => by match a with | ⟨0, _⟩ => rfl | ⟨1, _⟩ => exact absurd rfl ha | ⟨2, _⟩ => rfl | ⟨3, _⟩ => rfl)
      (by show 0 + 1 = p.val; omega)).trans ?_
    subst hB
    refine (broadcastInDim_apply _ f6 _
      (ix4 b (0 : Fin 1) w c) (ix3 b w c) (fun a => by
        match a with
        | ⟨0, _⟩ => show b.val = if (32 : Nat) = 1 then 0 else b.val; rw [if_neg (by decide)]
        | ⟨1, _⟩ => show w.val = if (64 : Nat) = 1 then 0 else w.val; rw [if_neg (by decide)]
        | ⟨2, _⟩ => show c.val = if (512 : Nat) = 1 then 0 else c.val; rw [if_neg (by decide)])).trans ?_
    have h5 : S32x32x64x512.Reduces [1] S32x64x512 := ⟨f5.1, by decide, f5.2⟩
    generalize hY : extractStridedSlice S32x32x64x512 ![0, 32, 0, 0] x f4 = Y
    refine (hostReduce_max_r4a1 Y cst2 f5 h5 hu b w c).trans ?_
    subst hY
    rw [hc2]
    unfold colmax
    refine congrArg (fun f => (Finset.univ : Finset (Fin 32)).fold max bot f) (funext fun k => ?_)
    have hk : k.val < 32 := k.isLt
    refine (extractStridedSlice_apply ![0, 32, 0, 0] x f4 (ix4 b k w c)
      (ix4 b (⟨32 + k.val, by omega⟩ : Fin 64) w c) (fun a => by
        match a with
        | ⟨0, _⟩ => show b.val = 0 + b.val; omega
        | ⟨1, _⟩ => show 32 + k.val = 32 + k.val; rfl
        | ⟨2, _⟩ => show w.val = 0 + w.val; omega
        | ⟨3, _⟩ => show c.val = 0 + c.val; omega)).trans ?_
    exact img_eq x _ b.val (p.val * 32 + k.val) w.val c.val rfl (by show 32 + k.val = p.val * 32 + k.val; omega) rfl rfl

/-- Scale 2, the columns: of an array `xh` of per-band column values, the reference takes the first 1 group of 32
    columns together and the last group by itself, as for the rows. Band `p`, group `q`, channel `c` of the result is the
    greatest of `xh` over group `q`'s columns. -/
theorem widthPool2 (xh : FVec Ideal S32x2x64x512 .f32) (Z : Nat → Nat → Nat → Nat → Ideal .f32)
    (hxh : ∀ (b : Fin 32) (p : Fin 2) (w : Fin 64) (c : Fin 512), xh (ix4 b p w c) = Z b.val p.val w.val c.val)
    (cst1 cst2 : FVec Ideal S_ .f32) (hc1 : ∀ i, cst1 i = bot) (hc2 : ∀ i, cst2 i = bot)
    (g1 : S32x2x64x512.Slices ![0, 0, 0, 0] S32x2x32x512) (g2 : S32x2x32x512.ShapeCasts S32x2x1x32x512) (g3 : S32x2x1x32x512.ReducesTo [3] S32x2x1x512)
    (g4 : S32x2x64x512.Slices ![0, 0, 32, 0] S32x2x32x512) (g5 : S32x2x32x512.ReducesTo [2] S32x2x512)
    (g6 : S32x2x512.BroadcastsInDim S32x2x1x512 (![0, 1, 3] : Fin 3 → Fin S32x2x1x512.rank))
    (g7 : Shape.Concatenates [S32x2x1x512, S32x2x1x512] S32x2x2x512 2) (hu : 0 < S_.numel)
    (b : Fin 32) (p q : Fin 2) (c : Fin 512) :
    concatenate S32x2x2x512 2
      [⟨S32x2x1x512, Host.reduce FloatOps.maximumf (shapeCast S32x2x1x32x512 (extractStridedSlice S32x2x32x512 ![0, 0, 0, 0] xh g1) g2) cst1 g3 hu⟩,
       ⟨S32x2x1x512, broadcastInDim S32x2x1x512 ![0, 1, 3] g6 (Host.reduce FloatOps.maximumf (extractStridedSlice S32x2x32x512 ![0, 0, 32, 0] xh g4) cst2 g5 hu)⟩]
      g7 (ix4 b p q c)
      = (Finset.univ : Finset (Fin 32)).fold max bot (fun k => Z b.val p.val (q.val * 32 + k.val) c.val) := by
  have hb : b.val < 32 := b.isLt
  have hp : p.val < 2 := p.isLt
  have hq : q.val < 2 := q.isLt
  have hc : c.val < 512 := c.isLt
  generalize hA : Host.reduce FloatOps.maximumf (shapeCast S32x2x1x32x512 (extractStridedSlice S32x2x32x512 ![0, 0, 0, 0] xh g1) g2) cst1 g3 hu = A
  generalize hB : broadcastInDim S32x2x1x512 ![0, 1, 3] g6 (Host.reduce FloatOps.maximumf (extractStridedSlice S32x2x32x512 ![0, 0, 32, 0] xh g4) cst2 g5 hu) = B
  by_cases hqm : q.val < 1
  · have hL := concatenate_pair_apply_left (α := Ideal .f32) (t := S32x2x2x512) (s₁ := S32x2x1x512) (s₂ := S32x2x1x512) 2 A B g7
    refine (hL (ix4 b p q c) rfl (ix4 b p (⟨q.val, hqm⟩ : Fin 1) c)
      (fun a => by match a with | ⟨0, _⟩ => rfl | ⟨1, _⟩ => rfl | ⟨2, _⟩ => rfl | ⟨3, _⟩ => rfl)).trans ?_
    subst hA
    have h3 : S32x2x1x32x512.Reduces [3] S32x2x1x512 := ⟨g3.1, by decide, g3.2⟩
    generalize hY : shapeCast S32x2x1x32x512 (extractStridedSlice S32x2x32x512 ![0, 0, 0, 0] xh g1) g2 = Y
    refine (hostReduce_max_r5a3 Y cst1 g3 h3 hu b p (⟨q.val, hqm⟩ : Fin 1) c).trans ?_
    subst hY
    rw [hc1]
    refine congrArg (fun f => (Finset.univ : Finset (Fin 32)).fold max bot f) (funext fun k => ?_)
    have hk : k.val < 32 := k.isLt
    refine (shapeCast_apply (extractStridedSlice S32x2x32x512 ![0, 0, 0, 0] xh g1) g2 (ix5 b p (⟨q.val, hqm⟩ : Fin 1) k c)
      (ix4 b p (⟨q.val * 32 + k.val, by omega⟩ : Fin 32) c) ?_).trans ?_
    · rw [Shape.rowMajor_val_four, Shape.rowMajor_val_five]
      show ((b.val * 2 + p.val) * 32 + (q.val * 32 + k.val)) * 512 + c.val
        = ((((b.val * 2 + p.val) * 1 + q.val) * 32 + k.val) * 512 + c.val)
      omega
    refine (extractStridedSlice_apply ![0, 0, 0, 0] xh g1 (ix4 b p (⟨q.val * 32 + k.val, by omega⟩ : Fin 32) c)
      (ix4 b p (⟨q.val * 32 + k.val, by omega⟩ : Fin 64) c) (fun a => by
        match a with
        | ⟨0, _⟩ => show b.val = 0 + b.val; omega
        | ⟨1, _⟩ => show p.val = 0 + p.val; omega
        | ⟨2, _⟩ => show q.val * 32 + k.val = 0 + (q.val * 32 + k.val); omega
        | ⟨3, _⟩ => show c.val = 0 + c.val; omega)).trans ?_
    exact hxh b p _ c
  · have hqe : q.val = 1 := by omega
    have hR := concatenate_pair_apply_right (α := Ideal .f32) (t := S32x2x2x512) (s₁ := S32x2x1x512) (s₂ := S32x2x1x512) 2 A B g7
    refine (hR (ix4 b p q c) rfl rfl (ix4 b p (0 : Fin 1) c)
      (fun a ha => by match a with | ⟨0, _⟩ => rfl | ⟨1, _⟩ => rfl | ⟨2, _⟩ => exact absurd rfl ha | ⟨3, _⟩ => rfl)
      (by show 0 + 1 = q.val; omega)).trans ?_
    subst hB
    refine (broadcastInDim_apply _ g6 _
      (ix4 b p (0 : Fin 1) c) (ix3 b p c) (fun a => by
        match a with
        | ⟨0, _⟩ => show b.val = if (32 : Nat) = 1 then 0 else b.val; rw [if_neg (by decide)]
        | ⟨1, _⟩ => show p.val = if (2 : Nat) = 1 then 0 else p.val; rw [if_neg (by decide)]
        | ⟨2, _⟩ => show c.val = if (512 : Nat) = 1 then 0 else c.val; rw [if_neg (by decide)])).trans ?_
    have h5 : S32x2x32x512.Reduces [2] S32x2x512 := ⟨g5.1, by decide, g5.2⟩
    generalize hY : extractStridedSlice S32x2x32x512 ![0, 0, 32, 0] xh g4 = Y
    refine (hostReduce_max_r4a2 Y cst2 g5 h5 hu b p c).trans ?_
    subst hY
    rw [hc2]
    refine congrArg (fun f => (Finset.univ : Finset (Fin 32)).fold max bot f) (funext fun k => ?_)
    have hk : k.val < 32 := k.isLt
    refine (extractStridedSlice_apply ![0, 0, 32, 0] xh g4 (ix4 b p k c)
      (ix4 b p (⟨32 + k.val, by omega⟩ : Fin 64) c) (fun a => by
        match a with
        | ⟨0, _⟩ => show b.val = 0 + b.val; omega
        | ⟨1, _⟩ => show p.val = 0 + p.val; omega
        | ⟨2, _⟩ => show 32 + k.val = 32 + k.val; rfl
        | ⟨3, _⟩ => show c.val = 0 + c.val; omega)).trans ?_
    refine (hxh b p _ c).trans ?_
    show Z b.val p.val (32 + k.val) c.val = Z b.val p.val (q.val * 32 + k.val) c.val
    rw [show 32 + k.val = q.val * 32 + k.val by omega]

/-- Scale 4, the rows: the reference takes the first 3 bands of 16 rows together (a slice of 48 rows regrouped as 3 × 16 and
    reduced over the 16) and the last band by itself (the remaining 16 rows reduced), and joins the two along the band
    axis. Band `p`, column `w`, channel `c` of the result is the column's greatest entry over band `p`'s rows. -/
theorem heightPool4 (x : FVec Ideal S32x64x64x512 .f32) (cst1 cst2 : FVec Ideal S_ .f32)
    (hc1 : ∀ i, cst1 i = bot) (hc2 : ∀ i, cst2 i = bot)
    (f1 : S32x64x64x512.Slices ![0, 0, 0, 0] S32x48x64x512) (f2 : S32x48x64x512.ShapeCasts S32x3x16x64x512) (f3 : S32x3x16x64x512.ReducesTo [2] S32x3x64x512)
    (f4 : S32x64x64x512.Slices ![0, 48, 0, 0] S32x16x64x512) (f5 : S32x16x64x512.ReducesTo [1] S32x64x512)
    (f6 : S32x64x512.BroadcastsInDim S32x1x64x512 (![0, 2, 3] : Fin 3 → Fin S32x1x64x512.rank))
    (f7 : Shape.Concatenates [S32x3x64x512, S32x1x64x512] S32x4x64x512 1) (hu : 0 < S_.numel)
    (b : Fin 32) (p : Fin 4) (w : Fin 64) (c : Fin 512) :
    concatenate S32x4x64x512 1
      [⟨S32x3x64x512, Host.reduce FloatOps.maximumf (shapeCast S32x3x16x64x512 (extractStridedSlice S32x48x64x512 ![0, 0, 0, 0] x f1) f2) cst1 f3 hu⟩,
       ⟨S32x1x64x512, broadcastInDim S32x1x64x512 ![0, 2, 3] f6 (Host.reduce FloatOps.maximumf (extractStridedSlice S32x16x64x512 ![0, 48, 0, 0] x f4) cst2 f5 hu)⟩]
      f7 (ix4 b p w c)
      = colmax 16 (img x b.val) p.val w.val c.val := by
  have hb : b.val < 32 := b.isLt
  have hp : p.val < 4 := p.isLt
  have hw : w.val < 64 := w.isLt
  have hc : c.val < 512 := c.isLt
  generalize hA : Host.reduce FloatOps.maximumf (shapeCast S32x3x16x64x512 (extractStridedSlice S32x48x64x512 ![0, 0, 0, 0] x f1) f2) cst1 f3 hu = A
  generalize hB : broadcastInDim S32x1x64x512 ![0, 2, 3] f6 (Host.reduce FloatOps.maximumf (extractStridedSlice S32x16x64x512 ![0, 48, 0, 0] x f4) cst2 f5 hu) = B
  by_cases hpm : p.val < 3
  · have hL := concatenate_pair_apply_left (α := Ideal .f32) (t := S32x4x64x512) (s₁ := S32x3x64x512) (s₂ := S32x1x64x512) 1 A B f7
    refine (hL (ix4 b p w c) rfl (ix4 b (⟨p.val, hpm⟩ : Fin 3) w c)
      (fun a => by match a with | ⟨0, _⟩ => rfl | ⟨1, _⟩ => rfl | ⟨2, _⟩ => rfl | ⟨3, _⟩ => rfl)).trans ?_
    subst hA
    have h3 : S32x3x16x64x512.Reduces [2] S32x3x64x512 := ⟨f3.1, by decide, f3.2⟩
    generalize hY : shapeCast S32x3x16x64x512 (extractStridedSlice S32x48x64x512 ![0, 0, 0, 0] x f1) f2 = Y
    refine (hostReduce_max_r5a2 Y cst1 f3 h3 hu b (⟨p.val, hpm⟩ : Fin 3) w c).trans ?_
    subst hY
    rw [hc1]
    unfold colmax
    refine congrArg (fun f => (Finset.univ : Finset (Fin 16)).fold max bot f) (funext fun k => ?_)
    have hk : k.val < 16 := k.isLt
    refine (shapeCast_apply (extractStridedSlice S32x48x64x512 ![0, 0, 0, 0] x f1) f2 (ix5 b (⟨p.val, hpm⟩ : Fin 3) k w c)
      (ix4 b (⟨p.val * 16 + k.val, by omega⟩ : Fin 48) w c) ?_).trans ?_
    · rw [Shape.rowMajor_val_four, Shape.rowMajor_val_five]
      show ((b.val * 48 + (p.val * 16 + k.val)) * 64 + w.val) * 512 + c.val
        = ((((b.val * 3 + p.val) * 16 + k.val) * 64 + w.val) * 512 + c.val)
      omega
    refine (extractStridedSlice_apply ![0, 0, 0, 0] x f1 (ix4 b (⟨p.val * 16 + k.val, by omega⟩ : Fin 48) w c)
      (ix4 b (⟨p.val * 16 + k.val, by omega⟩ : Fin 64) w c) (fun a => by
        match a with
        | ⟨0, _⟩ => show b.val = 0 + b.val; omega
        | ⟨1, _⟩ => show p.val * 16 + k.val = 0 + (p.val * 16 + k.val); omega
        | ⟨2, _⟩ => show w.val = 0 + w.val; omega
        | ⟨3, _⟩ => show c.val = 0 + c.val; omega)).trans ?_
    exact img_eq x _ b.val (p.val * 16 + k.val) w.val c.val rfl rfl rfl rfl
  · have hpe : p.val = 3 := by omega
    have hR := concatenate_pair_apply_right (α := Ideal .f32) (t := S32x4x64x512) (s₁ := S32x3x64x512) (s₂ := S32x1x64x512) 1 A B f7
    refine (hR (ix4 b p w c) rfl rfl (ix4 b (0 : Fin 1) w c)
      (fun a ha => by match a with | ⟨0, _⟩ => rfl | ⟨1, _⟩ => exact absurd rfl ha | ⟨2, _⟩ => rfl | ⟨3, _⟩ => rfl)
      (by show 0 + 3 = p.val; omega)).trans ?_
    subst hB
    refine (broadcastInDim_apply _ f6 _
      (ix4 b (0 : Fin 1) w c) (ix3 b w c) (fun a => by
        match a with
        | ⟨0, _⟩ => show b.val = if (32 : Nat) = 1 then 0 else b.val; rw [if_neg (by decide)]
        | ⟨1, _⟩ => show w.val = if (64 : Nat) = 1 then 0 else w.val; rw [if_neg (by decide)]
        | ⟨2, _⟩ => show c.val = if (512 : Nat) = 1 then 0 else c.val; rw [if_neg (by decide)])).trans ?_
    have h5 : S32x16x64x512.Reduces [1] S32x64x512 := ⟨f5.1, by decide, f5.2⟩
    generalize hY : extractStridedSlice S32x16x64x512 ![0, 48, 0, 0] x f4 = Y
    refine (hostReduce_max_r4a1 Y cst2 f5 h5 hu b w c).trans ?_
    subst hY
    rw [hc2]
    unfold colmax
    refine congrArg (fun f => (Finset.univ : Finset (Fin 16)).fold max bot f) (funext fun k => ?_)
    have hk : k.val < 16 := k.isLt
    refine (extractStridedSlice_apply ![0, 48, 0, 0] x f4 (ix4 b k w c)
      (ix4 b (⟨48 + k.val, by omega⟩ : Fin 64) w c) (fun a => by
        match a with
        | ⟨0, _⟩ => show b.val = 0 + b.val; omega
        | ⟨1, _⟩ => show 48 + k.val = 48 + k.val; rfl
        | ⟨2, _⟩ => show w.val = 0 + w.val; omega
        | ⟨3, _⟩ => show c.val = 0 + c.val; omega)).trans ?_
    exact img_eq x _ b.val (p.val * 16 + k.val) w.val c.val rfl (by show 48 + k.val = p.val * 16 + k.val; omega) rfl rfl

/-- Scale 4, the columns: of an array `xh` of per-band column values, the reference takes the first 3 groups of 16
    columns together and the last group by itself, as for the rows. Band `p`, group `q`, channel `c` of the result is the
    greatest of `xh` over group `q`'s columns. -/
theorem widthPool4 (xh : FVec Ideal S32x4x64x512 .f32) (Z : Nat → Nat → Nat → Nat → Ideal .f32)
    (hxh : ∀ (b : Fin 32) (p : Fin 4) (w : Fin 64) (c : Fin 512), xh (ix4 b p w c) = Z b.val p.val w.val c.val)
    (cst1 cst2 : FVec Ideal S_ .f32) (hc1 : ∀ i, cst1 i = bot) (hc2 : ∀ i, cst2 i = bot)
    (g1 : S32x4x64x512.Slices ![0, 0, 0, 0] S32x4x48x512) (g2 : S32x4x48x512.ShapeCasts S32x4x3x16x512) (g3 : S32x4x3x16x512.ReducesTo [3] S32x4x3x512)
    (g4 : S32x4x64x512.Slices ![0, 0, 48, 0] S32x4x16x512) (g5 : S32x4x16x512.ReducesTo [2] S32x4x512)
    (g6 : S32x4x512.BroadcastsInDim S32x4x1x512 (![0, 1, 3] : Fin 3 → Fin S32x4x1x512.rank))
    (g7 : Shape.Concatenates [S32x4x3x512, S32x4x1x512] S32x4x4x512 2) (hu : 0 < S_.numel)
    (b : Fin 32) (p q : Fin 4) (c : Fin 512) :
    concatenate S32x4x4x512 2
      [⟨S32x4x3x512, Host.reduce FloatOps.maximumf (shapeCast S32x4x3x16x512 (extractStridedSlice S32x4x48x512 ![0, 0, 0, 0] xh g1) g2) cst1 g3 hu⟩,
       ⟨S32x4x1x512, broadcastInDim S32x4x1x512 ![0, 1, 3] g6 (Host.reduce FloatOps.maximumf (extractStridedSlice S32x4x16x512 ![0, 0, 48, 0] xh g4) cst2 g5 hu)⟩]
      g7 (ix4 b p q c)
      = (Finset.univ : Finset (Fin 16)).fold max bot (fun k => Z b.val p.val (q.val * 16 + k.val) c.val) := by
  have hb : b.val < 32 := b.isLt
  have hp : p.val < 4 := p.isLt
  have hq : q.val < 4 := q.isLt
  have hc : c.val < 512 := c.isLt
  generalize hA : Host.reduce FloatOps.maximumf (shapeCast S32x4x3x16x512 (extractStridedSlice S32x4x48x512 ![0, 0, 0, 0] xh g1) g2) cst1 g3 hu = A
  generalize hB : broadcastInDim S32x4x1x512 ![0, 1, 3] g6 (Host.reduce FloatOps.maximumf (extractStridedSlice S32x4x16x512 ![0, 0, 48, 0] xh g4) cst2 g5 hu) = B
  by_cases hqm : q.val < 3
  · have hL := concatenate_pair_apply_left (α := Ideal .f32) (t := S32x4x4x512) (s₁ := S32x4x3x512) (s₂ := S32x4x1x512) 2 A B g7
    refine (hL (ix4 b p q c) rfl (ix4 b p (⟨q.val, hqm⟩ : Fin 3) c)
      (fun a => by match a with | ⟨0, _⟩ => rfl | ⟨1, _⟩ => rfl | ⟨2, _⟩ => rfl | ⟨3, _⟩ => rfl)).trans ?_
    subst hA
    have h3 : S32x4x3x16x512.Reduces [3] S32x4x3x512 := ⟨g3.1, by decide, g3.2⟩
    generalize hY : shapeCast S32x4x3x16x512 (extractStridedSlice S32x4x48x512 ![0, 0, 0, 0] xh g1) g2 = Y
    refine (hostReduce_max_r5a3 Y cst1 g3 h3 hu b p (⟨q.val, hqm⟩ : Fin 3) c).trans ?_
    subst hY
    rw [hc1]
    refine congrArg (fun f => (Finset.univ : Finset (Fin 16)).fold max bot f) (funext fun k => ?_)
    have hk : k.val < 16 := k.isLt
    refine (shapeCast_apply (extractStridedSlice S32x4x48x512 ![0, 0, 0, 0] xh g1) g2 (ix5 b p (⟨q.val, hqm⟩ : Fin 3) k c)
      (ix4 b p (⟨q.val * 16 + k.val, by omega⟩ : Fin 48) c) ?_).trans ?_
    · rw [Shape.rowMajor_val_four, Shape.rowMajor_val_five]
      show ((b.val * 4 + p.val) * 48 + (q.val * 16 + k.val)) * 512 + c.val
        = ((((b.val * 4 + p.val) * 3 + q.val) * 16 + k.val) * 512 + c.val)
      omega
    refine (extractStridedSlice_apply ![0, 0, 0, 0] xh g1 (ix4 b p (⟨q.val * 16 + k.val, by omega⟩ : Fin 48) c)
      (ix4 b p (⟨q.val * 16 + k.val, by omega⟩ : Fin 64) c) (fun a => by
        match a with
        | ⟨0, _⟩ => show b.val = 0 + b.val; omega
        | ⟨1, _⟩ => show p.val = 0 + p.val; omega
        | ⟨2, _⟩ => show q.val * 16 + k.val = 0 + (q.val * 16 + k.val); omega
        | ⟨3, _⟩ => show c.val = 0 + c.val; omega)).trans ?_
    exact hxh b p _ c
  · have hqe : q.val = 3 := by omega
    have hR := concatenate_pair_apply_right (α := Ideal .f32) (t := S32x4x4x512) (s₁ := S32x4x3x512) (s₂ := S32x4x1x512) 2 A B g7
    refine (hR (ix4 b p q c) rfl rfl (ix4 b p (0 : Fin 1) c)
      (fun a ha => by match a with | ⟨0, _⟩ => rfl | ⟨1, _⟩ => rfl | ⟨2, _⟩ => exact absurd rfl ha | ⟨3, _⟩ => rfl)
      (by show 0 + 3 = q.val; omega)).trans ?_
    subst hB
    refine (broadcastInDim_apply _ g6 _
      (ix4 b p (0 : Fin 1) c) (ix3 b p c) (fun a => by
        match a with
        | ⟨0, _⟩ => show b.val = if (32 : Nat) = 1 then 0 else b.val; rw [if_neg (by decide)]
        | ⟨1, _⟩ => show p.val = if (4 : Nat) = 1 then 0 else p.val; rw [if_neg (by decide)]
        | ⟨2, _⟩ => show c.val = if (512 : Nat) = 1 then 0 else c.val; rw [if_neg (by decide)])).trans ?_
    have h5 : S32x4x16x512.Reduces [2] S32x4x512 := ⟨g5.1, by decide, g5.2⟩
    generalize hY : extractStridedSlice S32x4x16x512 ![0, 0, 48, 0] xh g4 = Y
    refine (hostReduce_max_r4a2 Y cst2 g5 h5 hu b p c).trans ?_
    subst hY
    rw [hc2]
    refine congrArg (fun f => (Finset.univ : Finset (Fin 16)).fold max bot f) (funext fun k => ?_)
    have hk : k.val < 16 := k.isLt
    refine (extractStridedSlice_apply ![0, 0, 48, 0] xh g4 (ix4 b p k c)
      (ix4 b p (⟨48 + k.val, by omega⟩ : Fin 64) c) (fun a => by
        match a with
        | ⟨0, _⟩ => show b.val = 0 + b.val; omega
        | ⟨1, _⟩ => show p.val = 0 + p.val; omega
        | ⟨2, _⟩ => show 48 + k.val = 48 + k.val; rfl
        | ⟨3, _⟩ => show c.val = 0 + c.val; omega)).trans ?_
    refine (hxh b p _ c).trans ?_
    show Z b.val p.val (48 + k.val) c.val = Z b.val p.val (q.val * 16 + k.val) c.val
    rw [show 48 + k.val = q.val * 16 + k.val by omega]

/-- Scale 8, the rows: the reference takes the first 7 bands of 8 rows together (a slice of 56 rows regrouped as 7 × 8 and
    reduced over the 8) and the last band by itself (the remaining 8 rows reduced), and joins the two along the band
    axis. Band `p`, column `w`, channel `c` of the result is the column's greatest entry over band `p`'s rows. -/
theorem heightPool8 (x : FVec Ideal S32x64x64x512 .f32) (cst1 cst2 : FVec Ideal S_ .f32)
    (hc1 : ∀ i, cst1 i = bot) (hc2 : ∀ i, cst2 i = bot)
    (f1 : S32x64x64x512.Slices ![0, 0, 0, 0] S32x56x64x512) (f2 : S32x56x64x512.ShapeCasts S32x7x8x64x512) (f3 : S32x7x8x64x512.ReducesTo [2] S32x7x64x512)
    (f4 : S32x64x64x512.Slices ![0, 56, 0, 0] S32x8x64x512) (f5 : S32x8x64x512.ReducesTo [1] S32x64x512)
    (f6 : S32x64x512.BroadcastsInDim S32x1x64x512 (![0, 2, 3] : Fin 3 → Fin S32x1x64x512.rank))
    (f7 : Shape.Concatenates [S32x7x64x512, S32x1x64x512] S32x8x64x512 1) (hu : 0 < S_.numel)
    (b : Fin 32) (p : Fin 8) (w : Fin 64) (c : Fin 512) :
    concatenate S32x8x64x512 1
      [⟨S32x7x64x512, Host.reduce FloatOps.maximumf (shapeCast S32x7x8x64x512 (extractStridedSlice S32x56x64x512 ![0, 0, 0, 0] x f1) f2) cst1 f3 hu⟩,
       ⟨S32x1x64x512, broadcastInDim S32x1x64x512 ![0, 2, 3] f6 (Host.reduce FloatOps.maximumf (extractStridedSlice S32x8x64x512 ![0, 56, 0, 0] x f4) cst2 f5 hu)⟩]
      f7 (ix4 b p w c)
      = colmax 8 (img x b.val) p.val w.val c.val := by
  have hb : b.val < 32 := b.isLt
  have hp : p.val < 8 := p.isLt
  have hw : w.val < 64 := w.isLt
  have hc : c.val < 512 := c.isLt
  generalize hA : Host.reduce FloatOps.maximumf (shapeCast S32x7x8x64x512 (extractStridedSlice S32x56x64x512 ![0, 0, 0, 0] x f1) f2) cst1 f3 hu = A
  generalize hB : broadcastInDim S32x1x64x512 ![0, 2, 3] f6 (Host.reduce FloatOps.maximumf (extractStridedSlice S32x8x64x512 ![0, 56, 0, 0] x f4) cst2 f5 hu) = B
  by_cases hpm : p.val < 7
  · have hL := concatenate_pair_apply_left (α := Ideal .f32) (t := S32x8x64x512) (s₁ := S32x7x64x512) (s₂ := S32x1x64x512) 1 A B f7
    refine (hL (ix4 b p w c) rfl (ix4 b (⟨p.val, hpm⟩ : Fin 7) w c)
      (fun a => by match a with | ⟨0, _⟩ => rfl | ⟨1, _⟩ => rfl | ⟨2, _⟩ => rfl | ⟨3, _⟩ => rfl)).trans ?_
    subst hA
    have h3 : S32x7x8x64x512.Reduces [2] S32x7x64x512 := ⟨f3.1, by decide, f3.2⟩
    generalize hY : shapeCast S32x7x8x64x512 (extractStridedSlice S32x56x64x512 ![0, 0, 0, 0] x f1) f2 = Y
    refine (hostReduce_max_r5a2 Y cst1 f3 h3 hu b (⟨p.val, hpm⟩ : Fin 7) w c).trans ?_
    subst hY
    rw [hc1]
    unfold colmax
    refine congrArg (fun f => (Finset.univ : Finset (Fin 8)).fold max bot f) (funext fun k => ?_)
    have hk : k.val < 8 := k.isLt
    refine (shapeCast_apply (extractStridedSlice S32x56x64x512 ![0, 0, 0, 0] x f1) f2 (ix5 b (⟨p.val, hpm⟩ : Fin 7) k w c)
      (ix4 b (⟨p.val * 8 + k.val, by omega⟩ : Fin 56) w c) ?_).trans ?_
    · rw [Shape.rowMajor_val_four, Shape.rowMajor_val_five]
      show ((b.val * 56 + (p.val * 8 + k.val)) * 64 + w.val) * 512 + c.val
        = ((((b.val * 7 + p.val) * 8 + k.val) * 64 + w.val) * 512 + c.val)
      omega
    refine (extractStridedSlice_apply ![0, 0, 0, 0] x f1 (ix4 b (⟨p.val * 8 + k.val, by omega⟩ : Fin 56) w c)
      (ix4 b (⟨p.val * 8 + k.val, by omega⟩ : Fin 64) w c) (fun a => by
        match a with
        | ⟨0, _⟩ => show b.val = 0 + b.val; omega
        | ⟨1, _⟩ => show p.val * 8 + k.val = 0 + (p.val * 8 + k.val); omega
        | ⟨2, _⟩ => show w.val = 0 + w.val; omega
        | ⟨3, _⟩ => show c.val = 0 + c.val; omega)).trans ?_
    exact img_eq x _ b.val (p.val * 8 + k.val) w.val c.val rfl rfl rfl rfl
  · have hpe : p.val = 7 := by omega
    have hR := concatenate_pair_apply_right (α := Ideal .f32) (t := S32x8x64x512) (s₁ := S32x7x64x512) (s₂ := S32x1x64x512) 1 A B f7
    refine (hR (ix4 b p w c) rfl rfl (ix4 b (0 : Fin 1) w c)
      (fun a ha => by match a with | ⟨0, _⟩ => rfl | ⟨1, _⟩ => exact absurd rfl ha | ⟨2, _⟩ => rfl | ⟨3, _⟩ => rfl)
      (by show 0 + 7 = p.val; omega)).trans ?_
    subst hB
    refine (broadcastInDim_apply _ f6 _
      (ix4 b (0 : Fin 1) w c) (ix3 b w c) (fun a => by
        match a with
        | ⟨0, _⟩ => show b.val = if (32 : Nat) = 1 then 0 else b.val; rw [if_neg (by decide)]
        | ⟨1, _⟩ => show w.val = if (64 : Nat) = 1 then 0 else w.val; rw [if_neg (by decide)]
        | ⟨2, _⟩ => show c.val = if (512 : Nat) = 1 then 0 else c.val; rw [if_neg (by decide)])).trans ?_
    have h5 : S32x8x64x512.Reduces [1] S32x64x512 := ⟨f5.1, by decide, f5.2⟩
    generalize hY : extractStridedSlice S32x8x64x512 ![0, 56, 0, 0] x f4 = Y
    refine (hostReduce_max_r4a1 Y cst2 f5 h5 hu b w c).trans ?_
    subst hY
    rw [hc2]
    unfold colmax
    refine congrArg (fun f => (Finset.univ : Finset (Fin 8)).fold max bot f) (funext fun k => ?_)
    have hk : k.val < 8 := k.isLt
    refine (extractStridedSlice_apply ![0, 56, 0, 0] x f4 (ix4 b k w c)
      (ix4 b (⟨56 + k.val, by omega⟩ : Fin 64) w c) (fun a => by
        match a with
        | ⟨0, _⟩ => show b.val = 0 + b.val; omega
        | ⟨1, _⟩ => show 56 + k.val = 56 + k.val; rfl
        | ⟨2, _⟩ => show w.val = 0 + w.val; omega
        | ⟨3, _⟩ => show c.val = 0 + c.val; omega)).trans ?_
    exact img_eq x _ b.val (p.val * 8 + k.val) w.val c.val rfl (by show 56 + k.val = p.val * 8 + k.val; omega) rfl rfl

/-- Scale 8, the columns: of an array `xh` of per-band column values, the reference takes the first 7 groups of 8
    columns together and the last group by itself, as for the rows. Band `p`, group `q`, channel `c` of the result is the
    greatest of `xh` over group `q`'s columns. -/
theorem widthPool8 (xh : FVec Ideal S32x8x64x512 .f32) (Z : Nat → Nat → Nat → Nat → Ideal .f32)
    (hxh : ∀ (b : Fin 32) (p : Fin 8) (w : Fin 64) (c : Fin 512), xh (ix4 b p w c) = Z b.val p.val w.val c.val)
    (cst1 cst2 : FVec Ideal S_ .f32) (hc1 : ∀ i, cst1 i = bot) (hc2 : ∀ i, cst2 i = bot)
    (g1 : S32x8x64x512.Slices ![0, 0, 0, 0] S32x8x56x512) (g2 : S32x8x56x512.ShapeCasts S32x8x7x8x512) (g3 : S32x8x7x8x512.ReducesTo [3] S32x8x7x512)
    (g4 : S32x8x64x512.Slices ![0, 0, 56, 0] S32x8x8x512) (g5 : S32x8x8x512.ReducesTo [2] S32x8x512)
    (g6 : S32x8x512.BroadcastsInDim S32x8x1x512 (![0, 1, 3] : Fin 3 → Fin S32x8x1x512.rank))
    (g7 : Shape.Concatenates [S32x8x7x512, S32x8x1x512] S32x8x8x512 2) (hu : 0 < S_.numel)
    (b : Fin 32) (p q : Fin 8) (c : Fin 512) :
    concatenate S32x8x8x512 2
      [⟨S32x8x7x512, Host.reduce FloatOps.maximumf (shapeCast S32x8x7x8x512 (extractStridedSlice S32x8x56x512 ![0, 0, 0, 0] xh g1) g2) cst1 g3 hu⟩,
       ⟨S32x8x1x512, broadcastInDim S32x8x1x512 ![0, 1, 3] g6 (Host.reduce FloatOps.maximumf (extractStridedSlice S32x8x8x512 ![0, 0, 56, 0] xh g4) cst2 g5 hu)⟩]
      g7 (ix4 b p q c)
      = (Finset.univ : Finset (Fin 8)).fold max bot (fun k => Z b.val p.val (q.val * 8 + k.val) c.val) := by
  have hb : b.val < 32 := b.isLt
  have hp : p.val < 8 := p.isLt
  have hq : q.val < 8 := q.isLt
  have hc : c.val < 512 := c.isLt
  generalize hA : Host.reduce FloatOps.maximumf (shapeCast S32x8x7x8x512 (extractStridedSlice S32x8x56x512 ![0, 0, 0, 0] xh g1) g2) cst1 g3 hu = A
  generalize hB : broadcastInDim S32x8x1x512 ![0, 1, 3] g6 (Host.reduce FloatOps.maximumf (extractStridedSlice S32x8x8x512 ![0, 0, 56, 0] xh g4) cst2 g5 hu) = B
  by_cases hqm : q.val < 7
  · have hL := concatenate_pair_apply_left (α := Ideal .f32) (t := S32x8x8x512) (s₁ := S32x8x7x512) (s₂ := S32x8x1x512) 2 A B g7
    refine (hL (ix4 b p q c) rfl (ix4 b p (⟨q.val, hqm⟩ : Fin 7) c)
      (fun a => by match a with | ⟨0, _⟩ => rfl | ⟨1, _⟩ => rfl | ⟨2, _⟩ => rfl | ⟨3, _⟩ => rfl)).trans ?_
    subst hA
    have h3 : S32x8x7x8x512.Reduces [3] S32x8x7x512 := ⟨g3.1, by decide, g3.2⟩
    generalize hY : shapeCast S32x8x7x8x512 (extractStridedSlice S32x8x56x512 ![0, 0, 0, 0] xh g1) g2 = Y
    refine (hostReduce_max_r5a3 Y cst1 g3 h3 hu b p (⟨q.val, hqm⟩ : Fin 7) c).trans ?_
    subst hY
    rw [hc1]
    refine congrArg (fun f => (Finset.univ : Finset (Fin 8)).fold max bot f) (funext fun k => ?_)
    have hk : k.val < 8 := k.isLt
    refine (shapeCast_apply (extractStridedSlice S32x8x56x512 ![0, 0, 0, 0] xh g1) g2 (ix5 b p (⟨q.val, hqm⟩ : Fin 7) k c)
      (ix4 b p (⟨q.val * 8 + k.val, by omega⟩ : Fin 56) c) ?_).trans ?_
    · rw [Shape.rowMajor_val_four, Shape.rowMajor_val_five]
      show ((b.val * 8 + p.val) * 56 + (q.val * 8 + k.val)) * 512 + c.val
        = ((((b.val * 8 + p.val) * 7 + q.val) * 8 + k.val) * 512 + c.val)
      omega
    refine (extractStridedSlice_apply ![0, 0, 0, 0] xh g1 (ix4 b p (⟨q.val * 8 + k.val, by omega⟩ : Fin 56) c)
      (ix4 b p (⟨q.val * 8 + k.val, by omega⟩ : Fin 64) c) (fun a => by
        match a with
        | ⟨0, _⟩ => show b.val = 0 + b.val; omega
        | ⟨1, _⟩ => show p.val = 0 + p.val; omega
        | ⟨2, _⟩ => show q.val * 8 + k.val = 0 + (q.val * 8 + k.val); omega
        | ⟨3, _⟩ => show c.val = 0 + c.val; omega)).trans ?_
    exact hxh b p _ c
  · have hqe : q.val = 7 := by omega
    have hR := concatenate_pair_apply_right (α := Ideal .f32) (t := S32x8x8x512) (s₁ := S32x8x7x512) (s₂ := S32x8x1x512) 2 A B g7
    refine (hR (ix4 b p q c) rfl rfl (ix4 b p (0 : Fin 1) c)
      (fun a ha => by match a with | ⟨0, _⟩ => rfl | ⟨1, _⟩ => rfl | ⟨2, _⟩ => exact absurd rfl ha | ⟨3, _⟩ => rfl)
      (by show 0 + 7 = q.val; omega)).trans ?_
    subst hB
    refine (broadcastInDim_apply _ g6 _
      (ix4 b p (0 : Fin 1) c) (ix3 b p c) (fun a => by
        match a with
        | ⟨0, _⟩ => show b.val = if (32 : Nat) = 1 then 0 else b.val; rw [if_neg (by decide)]
        | ⟨1, _⟩ => show p.val = if (8 : Nat) = 1 then 0 else p.val; rw [if_neg (by decide)]
        | ⟨2, _⟩ => show c.val = if (512 : Nat) = 1 then 0 else c.val; rw [if_neg (by decide)])).trans ?_
    have h5 : S32x8x8x512.Reduces [2] S32x8x512 := ⟨g5.1, by decide, g5.2⟩
    generalize hY : extractStridedSlice S32x8x8x512 ![0, 0, 56, 0] xh g4 = Y
    refine (hostReduce_max_r4a2 Y cst2 g5 h5 hu b p c).trans ?_
    subst hY
    rw [hc2]
    refine congrArg (fun f => (Finset.univ : Finset (Fin 8)).fold max bot f) (funext fun k => ?_)
    have hk : k.val < 8 := k.isLt
    refine (extractStridedSlice_apply ![0, 0, 56, 0] xh g4 (ix4 b p k c)
      (ix4 b p (⟨56 + k.val, by omega⟩ : Fin 64) c) (fun a => by
        match a with
        | ⟨0, _⟩ => show b.val = 0 + b.val; omega
        | ⟨1, _⟩ => show p.val = 0 + p.val; omega
        | ⟨2, _⟩ => show 56 + k.val = 56 + k.val; rfl
        | ⟨3, _⟩ => show c.val = 0 + c.val; omega)).trans ?_
    refine (hxh b p _ c).trans ?_
    show Z b.val p.val (56 + k.val) c.val = Z b.val p.val (q.val * 8 + k.val) c.val
    rw [show 56 + k.val = q.val * 8 + k.val by omega]

end Cert.Spp

end
-- ==== Proof.RefScaleOne.lean ====
/-
  The reference's pooling at scale 1, read at an index. With one band there are no "first s − 1 bands": the piece that
  would hold them is empty (an array with an axis of extent 0), and the whole axis of 64 is the last band, reduced by
  itself and joined after the empty piece. So the one band of the result holds the greatest entry over all 64 positions.
-/
import proofs.«132213_j23235773071813_1_alg».proof.ReferenceIdeal
import proofs.«132213_j23235773071813_1_alg».proof.Proof.Spec
import proofs.«132213_j23235773071813_1_alg».proof.Proof.LibMaxReduce
import Idealize.ShloMosaic.Lib.Pipeline.Value

noncomputable section

namespace Cert.Spp

open Idealize.ShloMosaic Idealize.ShloMosaic.ValueIdx Cert.ReferenceIdeal Cert.LibMaxReduce

/-- Scale 1, the rows: an empty piece joined with the reduction of all 64 rows. Column `w`, channel `c` of the one band
    is the column's greatest entry. -/
theorem heightPool1 (x : FVec Ideal S32x64x64x512 .f32) (A : FVec Ideal S32x0x64x512 .f32) (cst2 : FVec Ideal S_ .f32)
    (hc2 : ∀ i, cst2 i = bot) (f5 : S32x64x64x512.ReducesTo [1] S32x64x512)
    (f6 : S32x64x512.BroadcastsInDim S32x1x64x512 (![0, 2, 3] : Fin 3 → Fin S32x1x64x512.rank))
    (f7 : Shape.Concatenates [S32x0x64x512, S32x1x64x512] S32x1x64x512 1) (hu : 0 < S_.numel)
    (b : Fin 32) (p : Fin 1) (w : Fin 64) (c : Fin 512) :
    concatenate S32x1x64x512 1
      [⟨S32x0x64x512, A⟩,
       ⟨S32x1x64x512, broadcastInDim S32x1x64x512 ![0, 2, 3] f6 (Host.reduce FloatOps.maximumf x cst2 f5 hu)⟩]
      f7 (ix4 b p w c)
      = colmax 64 (img x b.val) p.val w.val c.val := by
  have hp : p.val < 1 := p.isLt
  generalize hB : broadcastInDim S32x1x64x512 ![0, 2, 3] f6 (Host.reduce FloatOps.maximumf x cst2 f5 hu) = B
  have hR := concatenate_pair_apply_right (α := Ideal .f32) (t := S32x1x64x512) (s₁ := S32x0x64x512) (s₂ := S32x1x64x512) 1 A B f7
  refine (hR (ix4 b p w c) rfl rfl (ix4 b (0 : Fin 1) w c)
    (fun a ha => by match a with | ⟨0, _⟩ => rfl | ⟨1, _⟩ => exact absurd rfl ha | ⟨2, _⟩ => rfl | ⟨3, _⟩ => rfl)
    (by show 0 + 0 = p.val; omega)).trans ?_
  subst hB
  refine (broadcastInDim_apply _ f6 _ (ix4 b (0 : Fin 1) w c) (ix3 b w c) (fun a => by
      match a with
      | ⟨0, _⟩ => show b.val = if (32 : Nat) = 1 then 0 else b.val; rw [if_neg (by decide)]
      | ⟨1, _⟩ => show w.val = if (64 : Nat) = 1 then 0 else w.val; rw [if_neg (by decide)]
      | ⟨2, _⟩ => show c.val = if (512 : Nat) = 1 then 0 else c.val; rw [if_neg (by decide)])).trans ?_
  have h5 : S32x64x64x512.Reduces [1] S32x64x512 := ⟨f5.1, by decide, f5.2⟩
  refine (hostReduce_max_r4a1 x cst2 f5 h5 hu b w c).trans ?_
  rw [hc2]
  unfold colmax
  refine congrArg (fun f => (Finset.univ : Finset (Fin 64)).fold max bot f) (funext fun k => ?_)
  exact img_eq x _ b.val (p.val * 64 + k.val) w.val c.val rfl (by show k.val = p.val * 64 + k.val; omega) rfl rfl

/-- Scale 1, the columns: an empty piece joined with the reduction of all 64 columns of an array `xh` of per-band column
    values. Channel `c` of the one tile is the greatest of `xh` over the 64 columns. -/
theorem widthPool1 (xh : FVec Ideal S32x1x64x512 .f32) (Z : Nat → Nat → Nat → Nat → Ideal .f32)
    (hxh : ∀ (b : Fin 32) (p : Fin 1) (w : Fin 64) (c : Fin 512), xh (ix4 b p w c) = Z b.val p.val w.val c.val)
    (A : FVec Ideal S32x1x0x512 .f32) (cst2 : FVec Ideal S_ .f32) (hc2 : ∀ i, cst2 i = bot)
    (g5 : S32x1x64x512.ReducesTo [2] S32x1x512)
    (g6 : S32x1x512.BroadcastsInDim S32x1x1x512 (![0, 1, 3] : Fin 3 → Fin S32x1x1x512.rank))
    (g7 : Shape.Concatenates [S32x1x0x512, S32x1x1x512] S32x1x1x512 2) (hu : 0 < S_.numel)
    (b : Fin 32) (p q : Fin 1) (c : Fin 512) :
    concatenate S32x1x1x512 2
      [⟨S32x1x0x512, A⟩,
       ⟨S32x1x1x512, broadcastInDim S32x1x1x512 ![0, 1, 3] g6 (Host.reduce FloatOps.maximumf xh cst2 g5 hu)⟩]
      g7 (ix4 b p q c)
      = (Finset.univ : Finset (Fin 64)).fold max bot (fun k => Z b.val p.val (q.val * 64 + k.val) c.val) := by
  have hq : q.val < 1 := q.isLt
  generalize hB : broadcastInDim S32x1x1x512 ![0, 1, 3] g6 (Host.reduce FloatOps.maximumf xh cst2 g5 hu) = B
  have hR := concatenate_pair_apply_right (α := Ideal .f32) (t := S32x1x1x512) (s₁ := S32x1x0x512) (s₂ := S32x1x1x512) 2 A B g7
  refine (hR (ix4 b p q c) rfl rfl (ix4 b p (0 : Fin 1) c)
    (fun a ha => by match a with | ⟨0, _⟩ => rfl | ⟨1, _⟩ => rfl | ⟨2, _⟩ => exact absurd rfl ha | ⟨3, _⟩ => rfl)
    (by show 0 + 0 = q.val; omega)).trans ?_
  subst hB
  refine (broadcastInDim_apply _ g6 _ (ix4 b p (0 : Fin 1) c) (ix3 b p c) (fun a => by
      match a with
      | ⟨0, _⟩ => show b.val = if (32 : Nat) = 1 then 0 else b.val; rw [if_neg (by decide)]
      | ⟨1, _⟩ => show p.val = if (1 : Nat) = 1 then 0 else p.val; rw [if_pos rfl]; have hp : p.val < 1 := p.isLt; omega
      | ⟨2, _⟩ => show c.val = if (512 : Nat) = 1 then 0 else c.val; rw [if_neg (by decide)])).trans ?_
  have h5 : S32x1x64x512.Reduces [2] S32x1x512 := ⟨g5.1, by decide, g5.2⟩
  refine (hostReduce_max_r4a2 xh cst2 g5 h5 hu b p c).trans ?_
  rw [hc2]
  refine congrArg (fun f => (Finset.univ : Finset (Fin 64)).fold max bot f) (funext fun k => ?_)
  refine (hxh b p k c).trans ?_
  exact congrArg (fun n => Z b.val p.val n c.val) (by omega : k.val = q.val * 64 + k.val)

end Cert.Spp

end
-- ==== Proof.RefValue.lean ====
/-
  The reference program's result as one function of its argument. Scale by scale its pooled array is the tile maxima
  of each image (`tiles1` … `tiles8`, from the row and column steps), each scale is re-listed as one row per image, and the
  four rows are joined end to end: 512 + 2048 + 8192 + 32768 = 43520 entries, entry `j` being channel `j % 512` of
  pyramid row `j / 512`. That is the kernel's 32 × 85 × 512 array re-listed image by image.
-/
import proofs.«132213_j23235773071813_1_alg».proof.Proof.RefRead
import proofs.«132213_j23235773071813_1_alg».proof.Proof.RefScales
import proofs.«132213_j23235773071813_1_alg».proof.Proof.RefScaleOne

noncomputable section

namespace Cert.ReferenceIdeal.RefValue

open Idealize.ShloMosaic Idealize.ShloMosaic.ValueIdx Cert.ReferenceIdeal Cert.ReferenceIdeal.Gen Cert.ReferenceIdeal.ReadP Cert.Spp

/-- Scale 1: the one entry per image and channel of the reference's pooled array is the whole image's greatest. -/
theorem tiles1 (x : FVec Ideal S32x64x64x512 .f32) (b : Fin 32) (p q : Fin 1) (c : Fin 512) :
    val_main_v11 (F := Ideal) x (ix4 b p q c) = tile 64 64 (img x b.val) p.val q.val c.val := by
  unfold val_main_v11 val_main_v10 val_main_v9
  refine (widthPool1 (val_main_v5 (F := Ideal) x) (fun b p w c => colmax 64 (img x b) p w c)
    (fun b p w c => by
      unfold val_main_v5 val_main_v4 val_main_v3
      exact heightPool1 x _ (val_main_cst_0 (F := Ideal)) (fun i => val_main_cst_0_apply i) _ _ _ _ b p w c)
    _ (val_main_cst_2 (F := Ideal)) (fun i => val_main_cst_2_apply i) _ _ _ _ b p q c).trans ?_
  unfold tile
  rfl

/-- Scale 2: entry `(b, p, q, c)` of the reference's 2 × 2 pooled array is tile `(p, q)` of image `b`. -/
theorem tiles2 (x : FVec Ideal S32x64x64x512 .f32) (b : Fin 32) (p q : Fin 2) (c : Fin 512) :
    val_main_v26 (F := Ideal) x (ix4 b p q c) = tile 32 32 (img x b.val) p.val q.val c.val := by
  unfold val_main_v26 val_main_v25 val_main_v24 val_main_v23 val_main_v22 val_main_v21 val_main_v20
  refine (widthPool2 (val_main_v19 (F := Ideal) x) (fun b p w c => colmax 32 (img x b) p w c)
    (fun b p w c => by
      unfold val_main_v19 val_main_v18 val_main_v17 val_main_v16 val_main_v15 val_main_v14 val_main_v13
      exact heightPool2 x (val_main_cst_3 (F := Ideal)) (val_main_cst_4 (F := Ideal)) (fun i => val_main_cst_3_apply i) (fun i => val_main_cst_4_apply i) _ _ _ _ _ _ _ _ b p w c)
    (val_main_cst_5 (F := Ideal)) (val_main_cst_6 (F := Ideal)) (fun i => val_main_cst_5_apply i) (fun i => val_main_cst_6_apply i) _ _ _ _ _ _ _ _ b p q c).trans ?_
  unfold tile
  rfl

/-- Scale 4: entry `(b, p, q, c)` of the reference's 4 × 4 pooled array is tile `(p, q)` of image `b`. -/
theorem tiles4 (x : FVec Ideal S32x64x64x512 .f32) (b : Fin 32) (p q : Fin 4) (c : Fin 512) :
    val_main_v41 (F := Ideal) x (ix4 b p q c) = tile 16 16 (img x b.val) p.val q.val c.val := by
  unfold val_main_v41 val_main_v40 val_main_v39 val_main_v38 val_main_v37 val_main_v36 val_main_v35
  refine (widthPool4 (val_main_v34 (F := Ideal) x) (fun b p w c => colmax 16 (img x b) p w c)
    (fun b p w c => by
      unfold val_main_v34 val_main_v33 val_main_v32 val_main_v31 val_main_v30 val_main_v29 val_main_v28
      exact heightPool4 x (val_main_cst_7 (F := Ideal)) (val_main_cst_8 (F := Ideal)) (fun i => val_main_cst_7_apply i) (fun i => val_main_cst_8_apply i) _ _ _ _ _ _ _ _ b p w c)
    (val_main_cst_9 (F := Ideal)) (val_main_cst_10 (F := Ideal)) (fun i => val_main_cst_9_apply i) (fun i => val_main_cst_10_apply i) _ _ _ _ _ _ _ _ b p q c).trans ?_
  unfold tile
  rfl

/-- Scale 8: entry `(b, p, q, c)` of the reference's 8 × 8 pooled array is tile `(p, q)` of image `b`. -/
theorem tiles8 (x : FVec Ideal S32x64x64x512 .f32) (b : Fin 32) (p q : Fin 8) (c : Fin 512) :
    val_main_v56 (F := Ideal) x (ix4 b p q c) = tile 8 8 (img x b.val) p.val q.val c.val := by
  unfold val_main_v56 val_main_v55 val_main_v54 val_main_v53 val_main_v52 val_main_v51 val_main_v50
  refine (widthPool8 (val_main_v49 (F := Ideal) x) (fun b p w c => colmax 8 (img x b) p w c)
    (fun b p w c => by
      unfold val_main_v49 val_main_v48 val_main_v47 val_main_v46 val_main_v45 val_main_v44 val_main_v43
      exact heightPool8 x (val_main_cst_11 (F := Ideal)) (val_main_cst_12 (F := Ideal)) (fun i => val_main_cst_11_apply i) (fun i => val_main_cst_12_apply i) _ _ _ _ _ _ _ _ b p w c)
    (val_main_cst_13 (F := Ideal)) (val_main_cst_14 (F := Ideal)) (fun i => val_main_cst_13_apply i) (fun i => val_main_cst_14_apply i) _ _ _ _ _ _ _ _ b p q c).trans ?_
  unfold tile
  rfl

/-- Scale 1, re-listed: entry `(b, j)` of the reference's 512-long row per image is tile `(j / 512 / 1, j / 512 % 1)`, channel `j % 512`. -/
theorem flat1 (x : FVec Ideal S32x64x64x512 .f32) (b : Fin 32) (j : Fin 512) :
    val_main_v12 (F := Ideal) x (ix2 b j) = tile 64 64 (img x b.val) (j.val / 512 / 1) (j.val / 512 % 1) (j.val % 512) := by
  have hb : b.val < 32 := b.isLt
  have hj : j.val < 512 := j.isLt
  unfold val_main_v12
  refine (shapeCast_apply (val_main_v11 (F := Ideal) x) _ (ix2 b j)
    (ix4 b (⟨j.val / 512 / 1, by omega⟩ : Fin 1) (⟨j.val / 512 % 1, by omega⟩ : Fin 1) (⟨j.val % 512, by omega⟩ : Fin 512)) ?_).trans
    (tiles1 x b _ _ _)
  rw [Shape.rowMajor_val_four, Shape.rowMajor_val_two]
  show ((b.val * 1 + j.val / 512 / 1) * 1 + j.val / 512 % 1) * 512 + j.val % 512 = b.val * 512 + j.val
  omega

/-- Scale 2, re-listed: entry `(b, j)` of the reference's 2048-long row per image is tile `(j / 512 / 2, j / 512 % 2)`, channel `j % 512`. -/
theorem flat2 (x : FVec Ideal S32x64x64x512 .f32) (b : Fin 32) (j : Fin 2048) :
    val_main_v27 (F := Ideal) x (ix2 b j) = tile 32 32 (img x b.val) (j.val / 512 / 2) (j.val / 512 % 2) (j.val % 512) := by
  have hb : b.val < 32 := b.isLt
  have hj : j.val < 2048 := j.isLt
  unfold val_main_v27
  refine (shapeCast_apply (val_main_v26 (F := Ideal) x) _ (ix2 b j)
    (ix4 b (⟨j.val / 512 / 2, by omega⟩ : Fin 2) (⟨j.val / 512 % 2, by omega⟩ : Fin 2) (⟨j.val % 512, by omega⟩ : Fin 512)) ?_).trans
    (tiles2 x b _ _ _)
  rw [Shape.rowMajor_val_four, Shape.rowMajor_val_two]
  show ((b.val * 2 + j.val / 512 / 2) * 2 + j.val / 512 % 2) * 512 + j.val % 512 = b.val * 2048 + j.val
  omega

/-- Scale 4, re-listed: entry `(b, j)` of the reference's 8192-long row per image is tile `(j / 512 / 4, j / 512 % 4)`, channel `j % 512`. -/
theorem flat4 (x : FVec Ideal S32x64x64x512 .f32) (b : Fin 32) (j : Fin 8192) :
    val_main_v42 (F := Ideal) x (ix2 b j) = tile 16 16 (img x b.val) (j.val / 512 / 4) (j.val / 512 % 4) (j.val % 512) := by
  have hb : b.val < 32 := b.isLt
  have hj : j.val < 8192 := j.isLt
  unfold val_main_v42
  refine (shapeCast_apply (val_main_v41 (F := Ideal) x) _ (ix2 b j)
    (ix4 b (⟨j.val / 512 / 4, by omega⟩ : Fin 4) (⟨j.val / 512 % 4, by omega⟩ : Fin 4) (⟨j.val % 512, by omega⟩ : Fin 512)) ?_).trans
    (tiles4 x b _ _ _)
  rw [Shape.rowMajor_val_four, Shape.rowMajor_val_two]
  show ((b.val * 4 + j.val / 512 / 4) * 4 + j.val / 512 % 4) * 512 + j.val % 512 = b.val * 8192 + j.val
  omega

/-- Scale 8, re-listed: entry `(b, j)` of the reference's 32768-long row per image is tile `(j / 512 / 8, j / 512 % 8)`, channel `j % 512`. -/
theorem flat8 (x : FVec Ideal S32x64x64x512 .f32) (b : Fin 32) (j : Fin 32768) :
    val_main_v57 (F := Ideal) x (ix2 b j) = tile 8 8 (img x b.val) (j.val / 512 / 8) (j.val / 512 % 8) (j.val % 512) := by
  have hb : b.val < 32 := b.isLt
  have hj : j.val < 32768 := j.isLt
  unfold val_main_v57
  refine (shapeCast_apply (val_main_v56 (F := Ideal) x) _ (ix2 b j)
    (ix4 b (⟨j.val / 512 / 8, by omega⟩ : Fin 8) (⟨j.val / 512 % 8, by omega⟩ : Fin 8) (⟨j.val % 512, by omega⟩ : Fin 512)) ?_).trans
    (tiles8 x b _ _ _)
  rw [Shape.rowMajor_val_four, Shape.rowMajor_val_two]
  show ((b.val * 8 + j.val / 512 / 8) * 8 + j.val / 512 % 8) * 512 + j.val % 512 = b.val * 32768 + j.val
  omega

set_option maxRecDepth 65536 in
/-- Four rows of 512, 2048, 8192 and 32768 entries per image joined end to end, read at entry `j`: the row whose stretch
    holds `j`, at `j` less the entries before it. -/
theorem joined_apply (y1 : FVec Ideal S32x512 .f32) (y2 : FVec Ideal S32x2048 .f32) (y3 : FVec Ideal S32x8192 .f32)
    (y4 : FVec Ideal S32x32768 .f32) (hcat : Shape.Concatenates [S32x512, S32x2048, S32x8192, S32x32768] S32x43520 1)
    (b : Fin 32) (j : Fin 43520) :
    concatenate S32x43520 1 [⟨S32x512, y1⟩, ⟨S32x2048, y2⟩, ⟨S32x8192, y3⟩, ⟨S32x32768, y4⟩] hcat (ix2 b j)
      = if h1 : j.val < 512 then y1 (ix2 b (⟨j.val, h1⟩ : Fin 512))
        else if h2 : j.val < 2560 then y2 (ix2 b (⟨j.val - 512, by omega⟩ : Fin 2048))
        else if h3 : j.val < 10752 then y3 (ix2 b (⟨j.val - 2560, by omega⟩ : Fin 8192))
        else y4 (ix2 b (⟨j.val - 10752, by have := j.isLt; omega⟩ : Fin 32768)) := by
  have hj : j.val < 43520 := j.isLt
  by_cases h1 : j.val < 512
  · rw [dif_pos h1]
    exact concatenate_apply_piece (t := S32x43520) (1 : Fin 2) [⟨S32x512, y1⟩, ⟨S32x2048, y2⟩, ⟨S32x8192, y3⟩, ⟨S32x32768, y4⟩] hcat (ix2 b j) 0 (by show (0 : Nat) < 4; omega) S32x512 y1 rfl rfl 0 (by rfl)
      (ix2 b (⟨j.val, h1⟩ : Fin 512))
      (fun a ha => by match a with | ⟨0, _⟩ => rfl | ⟨1, _⟩ => exact absurd rfl ha)
      (by show 0 + j.val = j.val; omega)
  rw [dif_neg h1]
  by_cases h2 : j.val < 2560
  · rw [dif_pos h2]
    exact concatenate_apply_piece (t := S32x43520) (1 : Fin 2) [⟨S32x512, y1⟩, ⟨S32x2048, y2⟩, ⟨S32x8192, y3⟩, ⟨S32x32768, y4⟩] hcat (ix2 b j) 1 (by show (1 : Nat) < 4; omega) S32x2048 y2 rfl rfl 512 (by rfl)
      (ix2 b (⟨j.val - 512, by omega⟩ : Fin 2048))
      (fun a ha => by match a with | ⟨0, _⟩ => rfl | ⟨1, _⟩ => exact absurd rfl ha)
      (by show 512 + (j.val - 512) = j.val; omega)
  rw [dif_neg h2]
  by_cases h3 : j.val < 10752
  · rw [dif_pos h3]
    exact concatenate_apply_piece (t := S32x43520) (1 : Fin 2) [⟨S32x512, y1⟩, ⟨S32x2048, y2⟩, ⟨S32x8192, y3⟩, ⟨S32x32768, y4⟩] hcat (ix2 b j) 2 (by show (2 : Nat) < 4; omega) S32x8192 y3 rfl rfl 2560 (by rfl)
      (ix2 b (⟨j.val - 2560, by omega⟩ : Fin 8192))
      (fun a ha => by match a with | ⟨0, _⟩ => rfl | ⟨1, _⟩ => exact absurd rfl ha)
      (by show 2560 + (j.val - 2560) = j.val; omega)
  rw [dif_neg h3]
  exact concatenate_apply_piece (t := S32x43520) (1 : Fin 2) [⟨S32x512, y1⟩, ⟨S32x2048, y2⟩, ⟨S32x8192, y3⟩, ⟨S32x32768, y4⟩] hcat (ix2 b j) 3 (by show (3 : Nat) < 4; omega) S32x32768 y4 rfl rfl 10752 (by rfl)
    (ix2 b (⟨j.val - 10752, by omega⟩ : Fin 32768))
    (fun a ha => by match a with | ⟨0, _⟩ => rfl | ⟨1, _⟩ => exact absurd rfl ha)
    (by show 10752 + (j.val - 10752) = j.val; omega)

/-- THE REFERENCE'S RESULT: the pyramid of its argument, each image's 85 × 512 entries re-listed as one row. -/
theorem value_eq (x : FVec Ideal S32x64x64x512 .f32) (hcast : (⟨3, ![32, 85, 512]⟩ : Shape).ShapeCasts S32x43520) :
    val_main_v58 (F := Ideal) x = shapeCast S32x43520 (pooled x) hcast := by
  funext J
  obtain ⟨b, j, rfl⟩ : ∃ (b : Fin 32) (j : Fin 43520), J = ix2 b j := ⟨J 0, J 1, eq_ix2 J⟩
  have hb : b.val < 32 := b.isLt
  have hj : j.val < 43520 := j.isLt
  refine Eq.trans ?_ (shapeCast_apply (pooled x) hcast (ix2 b j)
    (ix3 b (⟨j.val / 512, by omega⟩ : Fin 85) (⟨j.val % 512, by omega⟩ : Fin 512)) (by
      rw [Shape.rowMajor_val_three, Shape.rowMajor_val_two]
      show (b.val * 85 + j.val / 512) * 512 + j.val % 512 = b.val * 43520 + j.val
      omega)).symm
  show val_main_v58 (F := Ideal) x (ix2 b j) = bins (img x b.val) (j.val / 512) (j.val % 512)
  unfold val_main_v58
  refine (joined_apply _ _ _ _ _ b j).trans ?_
  unfold bins
  by_cases h1 : j.val < 512
  · rw [dif_pos h1, if_pos (by omega : j.val / 512 < 1)]
    refine (flat1 x b _).trans ?_
    show tile 64 64 (img x b.val) (j.val / 512 / 1) (j.val / 512 % 1) (j.val % 512) = _
    rw [show j.val / 512 / 1 = 0 by omega, show j.val / 512 % 1 = 0 by omega]
  rw [dif_neg h1, if_neg (by omega : ¬ j.val / 512 < 1)]
  by_cases h2 : j.val < 2560
  · rw [dif_pos h2, if_pos (by omega : j.val / 512 < 5)]
    refine (flat2 x b _).trans ?_
    show tile 32 32 (img x b.val) ((j.val - 512) / 512 / 2) ((j.val - 512) / 512 % 2) ((j.val - 512) % 512) = _
    rw [show (j.val - 512) / 512 = j.val / 512 - 1 by omega, show (j.val - 512) % 512 = j.val % 512 by omega]
  rw [dif_neg h2, if_neg (by omega : ¬ j.val / 512 < 5)]
  by_cases h3 : j.val < 10752
  · rw [dif_pos h3, if_pos (by omega : j.val / 512 < 21)]
    refine (flat4 x b _).trans ?_
    show tile 16 16 (img x b.val) ((j.val - 2560) / 512 / 4) ((j.val - 2560) / 512 % 4) ((j.val - 2560) % 512) = _
    rw [show (j.val - 2560) / 512 = j.val / 512 - 5 by omega, show (j.val - 2560) % 512 = j.val % 512 by omega]
  rw [dif_neg h3, if_neg (by omega : ¬ j.val / 512 < 21)]
  refine (flat8 x b _).trans ?_
  show tile 8 8 (img x b.val) ((j.val - 10752) / 512 / 8) ((j.val - 10752) / 512 % 8) ((j.val - 10752) % 512) = _
  rw [show (j.val - 10752) / 512 = j.val / 512 - 21 by omega, show (j.val - 10752) % 512 = j.val % 512 by omega]

end Cert.ReferenceIdeal.RefValue

end
-- ==== Proof.lean ====
/-
  Spatial-pyramid max pooling (scales 1, 2, 4, 8 over 64 × 64 positions, 512 channels, 32 images): the kernel against
  its jnp reference, over the extended reals.

  Both programs compute, for every image, channel and tile of every scale, the greatest entry of the tile, and list the
  1 + 4 + 16 + 64 = 85 tiles per image in the same order. The kernel stages one image per grid point, regroups its rows
  and columns into bands and reduces over each band, for the four scales in turn; the reference pools rows and then
  columns too, but takes the first s − 1 bands of an axis together and the last band by itself (64 is a multiple of
  every scale, so the last band is as long as the others). Both take each tile's maximum down its columns first and
  across them second, starting from −∞ each time, so the two results are the SAME nested fold of `max`
  (`Cert.Spp.tile`), and no law of the extended reals beyond the commutativity and associativity of `max` that
  the reductions themselves rest on is used; in particular nothing is asked of the precondition.

  Modules: Spec (the common value), LibMaxReduce (a one-axis maximum read at an index), KernelScales / KernelPayload /
  KernelValue (the kernel's stored block, the blocks tiling the array, the host line after the region),
  RefScales / RefScaleOne / RefValue (the reference's stages), RefRun / RefRead (the reference's run and its stages).
-/
import proofs.«132213_j23235773071813_1_alg».proof.Defs
import proofs.«132213_j23235773071813_1_alg».proof.Proof.Gen.Kernel
import proofs.«132213_j23235773071813_1_alg».proof.Proof.Gen.Kernel.Skeleton
import proofs.«132213_j23235773071813_1_alg».proof.Proof.Gen.Kernel.Launch
import proofs.«132213_j23235773071813_1_alg».proof.Proof.Gen.Kernel.Points
import proofs.«132213_j23235773071813_1_alg».proof.Proof.Gen.Kernel.Frame
import proofs.«132213_j23235773071813_1_alg».proof.Proof.Gen.KernelIdeal
import proofs.«132213_j23235773071813_1_alg».proof.Proof.Gen.KernelIdeal.Skeleton
import proofs.«132213_j23235773071813_1_alg».proof.Proof.Gen.KernelIdeal.Launch
import proofs.«132213_j23235773071813_1_alg».proof.Proof.Gen.KernelIdeal.Points
import proofs.«132213_j23235773071813_1_alg».proof.Proof.Gen.KernelIdeal.Frame
import proofs.«132213_j23235773071813_1_alg».proof.Proof.Gen.ReferenceIdeal
import proofs.«132213_j23235773071813_1_alg».proof.Proof.Gen.Pre_finite_inputs
import proofs.«132213_j23235773071813_1_alg».proof.Proof.KernelValue
import proofs.«132213_j23235773071813_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its argument. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its argument: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From arguments that agree, the kernel's result array and the reference's both end at the pyramid of the argument,
    each image's 85 × 512 entries re-listed as one row of 43520. -/
theorem algebraic : Cert.algebraic_KernelIdeal_ReferenceIdeal := by
  intro m ρ m' ρ' _ hagree
  refine ⟨_, Cert.KernelIdeal.Pooled.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v58_eq, hagree c]
  exact Cert.ReferenceIdeal.RefValue.value_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
